-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3 : Shape := ⟨2, ![131072, 3]⟩
abbrev S131072x66 : Shape := ⟨2, ![131072, 66]⟩
abbrev S120x256 : Shape := ⟨2, ![120, 256]⟩
abbrev S256 : Shape := ⟨1, ![256]⟩
abbrev S578x256 : Shape := ⟨2, ![578, 256]⟩
abbrev S256x1 : Shape := ⟨2, ![256, 1]⟩
abbrev S1 : Shape := ⟨1, ![1]⟩
abbrev S256x60 : Shape := ⟨2, ![256, 60]⟩
abbrev S60 : Shape := ⟨1, ![60]⟩
abbrev S_ : Shape := ⟨0, ![]⟩

class Facts : Prop where
  bcast_S_S131072x66 : S_.BroadcastsInDim S131072x66 (![] : Fin 0 → Fin S131072x66.rank)
  reducesTo_S131072x66_S_d0_1 : S131072x66.ReducesTo [0, 1] S_
  h_S_ : 0 < S_.numel
  bcast_S_S120x256 : S_.BroadcastsInDim S120x256 (![] : Fin 0 → Fin S120x256.rank)
  reducesTo_S120x256_S_d0_1 : S120x256.ReducesTo [0, 1] S_
  bcast_S_S256 : S_.BroadcastsInDim S256 (![] : Fin 0 → Fin S256.rank)
  reducesTo_S256_S_d0 : S256.ReducesTo [0] S_
  bcast_S_S578x256 : S_.BroadcastsInDim S578x256 (![] : Fin 0 → Fin S578x256.rank)
  reducesTo_S578x256_S_d0_1 : S578x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x60 : S_.BroadcastsInDim S256x60 (![] : Fin 0 → Fin S256x60.rank)
  reducesTo_S256x60_S_d0_1 : S256x60.ReducesTo [0, 1] S_
  bcast_S_S60 : S_.BroadcastsInDim S60 (![] : Fin 0 → Fin S60.rank)
  reducesTo_S60_S_d0 : S60.ReducesTo [0] S_
  bcast_S_S131072x3 : S_.BroadcastsInDim S131072x3 (![] : Fin 0 → Fin S131072x3.rank)
  reducesTo_S131072x3_S_d0_1 : S131072x3.ReducesTo [0, 1] S_

variable [Facts]

def fn_part3 {F : FTy → Type} [FloatOps F] (main_v47 : IVec S_ 1) (main_v49 : IVec S131072x3 1) (main_c_19 : IVec S_ 1) : IVec S_ 1 :=
  let main_v50 : IVec S_ 1 := (fun x v => Host.reduce IntOp.andi x v reducesTo_S131072x3_S_d0_1 h_S_) main_v49 main_c_19
  let main_v51 : IVec S_ 1 := andi main_v47 main_v50
  main_v51

def fn_part2 {F : FTy → Type} [FloatOps F] (main_arg0 : IVec S131072x3 32) (main_arg1 : IVec S131072x3 32) (main_arg9 : FVec F S256x60 .f32) (main_arg10 : FVec F S60 .f32) (main_v33 : IVec S_ 1) : IVec S_ 1 :=
  let main_v34 : FVec F S256x60 .f32 := Host.absf main_arg9
  let main_cst_12 : FVec F S_ .f32 := constant S_ .f32 0x7F800000#32
  let main_v35 : FVec F S256x60 .f32 := broadcastInDim S256x60 ![] bcast_S_S256x60 main_cst_12
  let main_v36 : IVec S256x60 1 := cmpf .olt main_v34 main_v35
  let main_c_13 : IVec S_ 1 := constantI S_ 1 1#1
  let main_v37 : IVec S_ 1 := (fun x v => Host.reduce IntOp.andi x v reducesTo_S256x60_S_d0_1 h_S_) main_v36 main_c_13
  let main_v38 : IVec S_ 1 := andi main_v33 main_v37
  let main_v39 : FVec F S60 .f32 := Host.absf main_arg10
  let main_cst_14 : FVec F S_ .f32 := constant S_ .f32 0x7F800000#32
  let main_v40 : FVec F S60 .f32 := broadcastInDim S60 ![] bcast_S_S60 main_cst_14
  let main_v41 : IVec S60 1 := cmpf .olt main_v39 main_v40
  let main_c_15 : IVec S_ 1 := constantI S_ 1 1#1
  let main_v42 : IVec S_ 1 := (fun x v => Host.reduce IntOp.andi x v reducesTo_S60_S_d0 h_S_) main_v41 main_c_15
  let main_v43 : IVec S_ 1 := andi main_v38 main_v42
  let main_c_16 : IVec S_ 32 := constantI S_ 32 0#32
  let main_v44 : IVec S131072x3 32 := broadcastInDim S131072x3 ![] bcast_S_S131072x3 main_c_16
  let main_v45 : IVec S131072x3 1 := cmpi .sge main_arg0 main_v44
  let main_c_17 : IVec S_ 1 := constantI S_ 1 1#1
  let main_v46 : IVec S_ 1 := (fun x v => Host.reduce IntOp.andi x v reducesTo_S131072x3_S_d0_1 h_S_) main_v45 main_c_17
  let main_v47 : IVec S_ 1 := andi main_v43 main_v46
  let main_c_18 : IVec S_ 32 := constantI S_ 32 0#32
  let main_v48 : IVec S131072x3 32 := broadcastInDim S131072x3 ![] bcast_S_S131072x3 main_c_18
  let main_v49 : IVec S131072x3 1 := cmpi .sge main_arg1 main_v48
  let main_c_19 : IVec S_ 1 := constantI S_ 1 1#1
  fn_part3 (F := F) main_v47 main_v49 main_c_19

def fn_part1 {F : FTy → Type} [FloatOps F] (main_arg0 : IVec S131072x3 32) (main_arg1 : IVec S131072x3 32) (main_arg6 : FVec F S256 .f32) (main_arg7 : FVec F S256x1 .f32) (main_arg8 : FVec F S1 .f32) (main_arg9 : FVec F S256x60 .f32) (main_arg10 : FVec F S60 .f32) (main_v13 : IVec S_ 1) (main_v16 : IVec S578x256 1) : IVec S_ 1 :=
  let main_c_5 : IVec S_ 1 := constantI S_ 1 1#1
  let main_v17 : IVec S_ 1 := (fun x v => Host.reduce IntOp.andi x v reducesTo_S578x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg7
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg0 main_arg1 main_arg9 main_arg10 main_v33

def fn {F : FTy → Type} [FloatOps F] (main_arg0 : IVec S131072x3 32) (main_arg1 : IVec S131072x3 32) (main_arg2 : FVec F S131072x66 .f32) (main_arg3 : FVec F S120x256 .f32) (main_arg4 : FVec F S256 .f32) (main_arg5 : FVec F S578x256 .f32) (main_arg6 : FVec F S256 .f32) (main_arg7 : FVec F S256x1 .f32) (main_arg8 : FVec F S1 .f32) (main_arg9 : FVec F S256x60 .f32) (main_arg10 : FVec F S60 .f32) : IVec S_ 1 :=
  let main_v0 : FVec F S131072x66 .f32 := Host.absf main_arg2
  let main_cst : FVec F S_ .f32 := constant S_ .f32 0x7F800000#32
  let main_v1 : FVec F S131072x66 .f32 := broadcastInDim S131072x66 ![] bcast_S_S131072x66 main_cst
  let main_v2 : IVec S131072x66 1 := cmpf .olt main_v0 main_v1
  let main_c : IVec S_ 1 := constantI S_ 1 1#1
  let main_v3 : IVec S_ 1 := (fun x v => Host.reduce IntOp.andi x v reducesTo_S131072x66_S_d0_1 h_S_) main_v2 main_c
  let main_v4 : FVec F S120x256 .f32 := Host.absf main_arg3
  let main_cst_0 : FVec F S_ .f32 := constant S_ .f32 0x7F800000#32
  let main_v5 : FVec F S120x256 .f32 := broadcastInDim S120x256 ![] bcast_S_S120x256 main_cst_0
  let main_v6 : IVec S120x256 1 := cmpf .olt main_v4 main_v5
  let main_c_1 : IVec S_ 1 := constantI S_ 1 1#1
  let main_v7 : IVec S_ 1 := (fun x v => Host.reduce IntOp.andi x v reducesTo_S120x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S578x256 .f32 := Host.absf main_arg5
  let main_cst_4 : FVec F S_ .f32 := constant S_ .f32 0x7F800000#32
  let main_v15 : FVec F S578x256 .f32 := broadcastInDim S578x256 ![] bcast_S_S578x256 main_cst_4
  let main_v16 : IVec S578x256 1 := cmpf .olt main_v14 main_v15
  fn_part1 (F := F) main_arg0 main_arg1 main_arg6 main_arg7 main_arg8 main_arg9 main_arg10 main_v13 main_v16
-- ==== Kernel.lean ====
abbrev S131072x3 : Shape := ⟨2, ![131072, 3]⟩
abbrev S131072x66 : Shape := ⟨2, ![131072, 66]⟩
abbrev S120x256 : Shape := ⟨2, ![120, 256]⟩
abbrev S256 : Shape := ⟨1, ![256]⟩
abbrev S578x256 : Shape := ⟨2, ![578, 256]⟩
abbrev S256x1 : Shape := ⟨2, ![256, 1]⟩
abbrev S1 : Shape := ⟨1, ![1]⟩
abbrev S256x60 : Shape := ⟨2, ![256, 60]⟩
abbrev S60 : Shape := ⟨1, ![60]⟩
abbrev S3x131072 : Shape := ⟨2, ![3, 131072]⟩
abbrev S256x256 : Shape := ⟨2, ![256, 256]⟩
abbrev S66x256 : Shape := ⟨2, ![66, 256]⟩
abbrev S_ : Shape := ⟨0, ![]⟩
abbrev S256x64 : Shape := ⟨2, ![256, 64]⟩
abbrev S64 : Shape := ⟨1, ![64]⟩
abbrev S131072x60 : Shape := ⟨2, ![131072, 60]⟩
abbrev S131072 : Shape := ⟨1, ![131072]⟩
abbrev S3x4096 : Shape := ⟨2, ![3, 4096]⟩
abbrev S4096x66 : Shape := ⟨2, ![4096, 66]⟩
abbrev S4096x60 : Shape := ⟨2, ![4096, 60]⟩
abbrev S4096 : Shape := ⟨1, ![4096]⟩
abbrev S4096x120 : Shape := ⟨2, ![4096, 120]⟩
abbrev S4096x3 : Shape := ⟨2, ![4096, 3]⟩
abbrev S4096x1 : Shape := ⟨2, ![4096, 1]⟩
abbrev S4096x256 : Shape := ⟨2, ![4096, 256]⟩
abbrev S1x256 : Shape := ⟨2, ![1, 256]⟩
abbrev S4096x64 : Shape := ⟨2, ![4096, 64]⟩
abbrev S1x64 : Shape := ⟨2, ![1, 64]⟩

abbrev nBuf : Space → Nat
  | .hbm => 41
  | .vmem => 18
  | .smem => 0
  | _ => 0

abbrev bufTy : (tb : Table) → Fin (tcTables nBuf tb) → BufTy
  | .hbm, ⟨0, _⟩ => ⟨S131072x3, .i32⟩
  | .hbm, ⟨1, _⟩ => ⟨S131072x3, .i32⟩
  | .hbm, ⟨2, _⟩ => ⟨S131072x66, .f32⟩
  | .hbm, ⟨3, _⟩ => ⟨S120x256, .f32⟩
  | .hbm, ⟨4, _⟩ => ⟨S256, .f32⟩
  | .hbm, ⟨5, _⟩ => ⟨S578x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S256x60, .f32⟩
  | .hbm, ⟨10, _⟩ => ⟨S60, .f32⟩
  | .hbm, ⟨11, _⟩ => ⟨S3x131072, .i32⟩
  | .hbm, ⟨12, _⟩ => ⟨S3x131072, .i32⟩
  | .hbm, ⟨13, _⟩ => ⟨S256x256, .f32⟩
  | .hbm, ⟨14, _⟩ => ⟨S256x256, .bf16⟩
  | .hbm, ⟨15, _⟩ => ⟨S256x256, .f32⟩
  | .hbm, ⟨16, _⟩ => ⟨S256x256, .bf16⟩
  | .hbm, ⟨17, _⟩ => ⟨S66x256, .f32⟩
  | .hbm, ⟨18, _⟩ => ⟨S66x256, .bf16⟩
  | .hbm, ⟨19, _⟩ => ⟨S_, .f32⟩
  | .hbm, ⟨20, _⟩ => ⟨S256x64, .f32⟩
  | .hbm, ⟨21, _⟩ => ⟨S_, .i32⟩
  | .hbm, ⟨22, _⟩ => ⟨S1, .i32⟩
  | .hbm, ⟨23, _⟩ => ⟨S256x64, .f32⟩
  | .hbm, ⟨24, _⟩ => ⟨S256, .f32⟩
  | .hbm, ⟨25, _⟩ => ⟨S_, .i32⟩
  | .hbm, ⟨26, _⟩ => ⟨S1, .i32⟩
  | .hbm, ⟨27, _⟩ => ⟨S256x64, .f32⟩
  | .hbm, ⟨28, _⟩ => ⟨S256x64, .bf16⟩
  | .hbm, ⟨29, _⟩ => ⟨S_, .f32⟩
  | .hbm, ⟨30, _⟩ => ⟨S64, .f32⟩
  | .hbm, ⟨31, _⟩ => ⟨S_, .i32⟩
  | .hbm, ⟨32, _⟩ => ⟨S1, .i32⟩
  | .hbm, ⟨33, _⟩ => ⟨S64, .f32⟩
  | .hbm, ⟨34, _⟩ => ⟨S_, .f32⟩
  | .hbm, ⟨35, _⟩ => ⟨S_, .i32⟩
  | .hbm, ⟨36, _⟩ => ⟨S1, .i32⟩
  | .hbm, ⟨37, _⟩ => ⟨S64, .f32⟩
  | .hbm, ⟨38, _⟩ => ⟨S120x256, .bf16⟩
  | .hbm, ⟨39, _⟩ => ⟨S131072x60, .f32⟩
  | .hbm, ⟨40, _⟩ => ⟨S131072, .f32⟩
  | .local _ .vmem, ⟨0, _⟩ => ⟨S3x4096, .i32⟩
  | .local _ .vmem, ⟨1, _⟩ => ⟨S3x4096, .i32⟩
  | .local _ .vmem, ⟨2, _⟩ => ⟨S3x4096, .i32⟩
  | .local _ .vmem, ⟨3, _⟩ => ⟨S3x4096, .i32⟩
  | .local _ .vmem, ⟨4, _⟩ => ⟨S4096x66, .f32⟩
  | .local _ .vmem, ⟨5, _⟩ => ⟨S4096x66, .f32⟩
  | .local _ .vmem, ⟨6, _⟩ => ⟨S120x256, .bf16⟩
  | .local _ .vmem, ⟨7, _⟩ => ⟨S256, .f32⟩
  | .local _ .vmem, ⟨8, _⟩ => ⟨S256x256, .bf16⟩
  | .local _ .vmem, ⟨9, _⟩ => ⟨S256x256, .bf16⟩
  | .local _ .vmem, ⟨10, _⟩ => ⟨S66x256, .bf16⟩
  | .local _ .vmem, ⟨11, _⟩ => ⟨S256, .f32⟩
  | .local _ .vmem, ⟨12, _⟩ => ⟨S256x64, .bf16⟩
  | .local _ .vmem, ⟨13, _⟩ => ⟨S64, .f32⟩
  | .local _ .vmem, ⟨14, _⟩ => ⟨S4096x60, .f32⟩
  | .local _ .vmem, ⟨15, _⟩ => ⟨S4096x60, .f32⟩
  | .local _ .vmem, ⟨16, _⟩ => ⟨S4096, .f32⟩
  | .local _ .vmem, ⟨17, _⟩ => ⟨S4096, .f32⟩
  | _, _ => ⟨S131072x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S3x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x66 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S120x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S66x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x60 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S131072x3_S3x131072_1_0 : S131072x3.Transposes [1, 0] S3x131072
  slices_S578x256_S256x256_0_0 : S578x256.Slices ![0, 0] S256x256
  bitsLt_bf16_f32 : FTy.bits .bf16 < FTy.bits .f32
  slices_S578x256_S256x256_256_0 : S578x256.Slices ![256, 0] S256x256
  slices_S578x256_S66x256_512_0 : S578x256.Slices ![512, 0] S66x256
  bcast_S_S256x64 : S_.BroadcastsInDim S256x64 (![] : Fin 0 → Fin S256x64.rank)
  bcast_S_S1 : S_.BroadcastsInDim S1 (![] : Fin 0 → Fin S1.rank)
  shapeCasts_S256x1_S256 : S256x1.ShapeCasts S256
  bcast_S_S64 : S_.BroadcastsInDim S64 (![] : Fin 0 → Fin S64.rank)
  shapeCasts_S1_S_ : S1.ShapeCasts S_
  iota_S4096x120_d1_w32 : S4096x120.Iotas .tc 32 [1]
  inb_S3x4096_S3x4096_0_0 : ∀ a, (![0, 0] : Fin 2 → Nat) a + S3x4096.size a ≤ S3x4096.size a
  h_S3x4096 : 0 < S3x4096.numel
  shapeCasts_S3x4096_S3x4096 : S3x4096.ShapeCasts S3x4096
  transposes_S3x4096_p1_0_S4096x3 : S3x4096.Transposes [1, 0] S4096x3
  slices_S4096x3_o0_0_S4096x1 : S4096x3.Slices ![0, 0] S4096x1
  broadcasts_S4096x1_S4096x120 : S4096x1.Broadcasts S4096x120
  natLt_1_32 : 1 < 32
  slices_S4096x3_o0_1_S4096x1 : S4096x3.Slices ![0, 1] S4096x1
  slices_S4096x3_o0_2_S4096x1 : S4096x3.Slices ![0, 2] S4096x1
  inb_S120x256_S120x256_0_0 : ∀ a, (![0, 0] : Fin 2 → Nat) a + S120x256.size a ≤ S120x256.size a
  h_S120x256 : 0 < S120x256.numel
  shapeCasts_S120x256_S120x256 : S120x256.ShapeCasts S120x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096x66_S4096x66_0_0 : ∀ a, (![0, 0] : Fin 2 → Nat) a + S4096x66.size a ≤ S4096x66.size a
  h_S4096x66 : 0 < S4096x66.numel
  inb_S66x256_S66x256_0_0 : ∀ a, (![0, 0] : Fin 2 → Nat) a + S66x256.size a ≤ S66x256.size a
  h_S66x256 : 0 < S66x256.numel
  shapeCasts_S66x256_S66x256 : S66x256.ShapeCasts S66x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S4096x64 : S1x64.Broadcasts S4096x64
  slices_S4096x64_o0_0_S4096x60 : S4096x64.Slices ![0, 0] S4096x60
  inb_S4096x60_S4096x60_0_0 : ∀ a, (![0, 0] : Fin 2 → Nat) a + S4096x60.size a ≤ S4096x60.size a
  h_S4096x60 : 0 < S4096x60.numel
  slices_S4096x64_o0_60_S4096x1 : S4096x64.Slices ![0, 60] S4096x1
  shapeCasts_S4096x1_S4096 : S4096x1.ShapeCasts S4096
  inb_S4096_S4096_0 : ∀ a, (![0] : Fin 1 → Nat) a + S4096.size a ≤ S4096.size a
  h_S4096 : 0 < S4096.numel
  scatter_S256x64_S1_S256x60_01_n_1_0_wf : ScatterDims.WF S256x64 S1 S256x60 [0, 1] [] [1] 0
  scatter_S256x64_S1_S256_0_1_1_0_wf : ScatterDims.WF S256x64 S1 S256 [0] [1] [1] 0
  scatter_S64_S1_S60_0_n_0_0_wf : ScatterDims.WF S64 S1 S60 [0] [] [0] 0
  scatter_S64_S1_S__n_0_0_0_wf : ScatterDims.WF S64 S1 S_ [] [0] [0] 0
  dot_S4096x120_S120x256_S4096x256_1_0_0_1_n_n_wf : DotDims.WF S4096x120 S120x256 S4096x256 [1] [0] [0] [1] [] []
  dot_S4096x256_S256x256_S4096x256_1_0_0_1_n_n_wf : DotDims.WF S4096x256 S256x256 S4096x256 [1] [0] [0] [1] [] []
  dot_S4096x66_S66x256_S4096x256_1_0_0_1_n_n_wf : DotDims.WF S4096x66 S66x256 S4096x256 [1] [0] [0] [1] [] []
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x4096.size a ≤ S3x131072.size a
  hwx0_0 : ∀ i : grid0.Coords, EltTy.bits .i32 = 32 ∨ (Rect.block (s := S3x131072) S3x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x4096.size a ≤ S3x131072.size a
  hwx0_1 : ∀ i : grid0.Coords, EltTy.bits .i32 = 32 ∨ (Rect.block (s := S3x131072) S3x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x66.size a ≤ S131072x66.size a
  hwx0_2 : ∀ i : grid0.Coords, EltTy.bits .f32 = 32 ∨ (Rect.block (s := S131072x66) S4096x66.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S120x256.size a ≤ S120x256.size a
  hwx0_3 : ∀ i : grid0.Coords, EltTy.bits .bf16 = 32 ∨ (Rect.block (s := S120x256) S120x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S66x256.size a ≤ S66x256.size a
  hwx0_7 : ∀ i : grid0.Coords, EltTy.bits .bf16 = 32 ∨ (Rect.block (s := S66x256) S66x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x64.size a ≤ S256x64.size a
  hwx0_9 : ∀ i : grid0.Coords, EltTy.bits .bf16 = 32 ∨ (Rect.block (s := S256x64) S256x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x60.size a ≤ S131072x60.size a
  hwx0_11 : ∀ i : grid0.Coords, EltTy.bits .f32 = 32 ∨ (Rect.block (s := S131072x60) S4096x60.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096.size a ≤ S131072.size a
  hwx0_12 : ∀ i : grid0.Coords, EltTy.bits .f32 = 32 ∨ (Rect.block (s := S131072) S4096.size (cc0_transform_12 i) (hinb0_12 i)).WholeWords (EltTy.packing .f32)

variable [Facts₀]

def scatter_S256x64_S1_S256x60_01_n_1_0 : ScatterDims S256x64 S1 S256x60 where
  updateWindowDims := [0, 1]
  insertedWindowDims := []
  scatterDimsToOperandDims := [1]
  indexVectorDim := 0
  wf := scatter_S256x64_S1_S256x60_01_n_1_0_wf
def scatter_S256x64_S1_S256_0_1_1_0 : ScatterDims S256x64 S1 S256 where
  updateWindowDims := [0]
  insertedWindowDims := [1]
  scatterDimsToOperandDims := [1]
  indexVectorDim := 0
  wf := scatter_S256x64_S1_S256_0_1_1_0_wf
def scatter_S64_S1_S60_0_n_0_0 : ScatterDims S64 S1 S60 where
  updateWindowDims := [0]
  insertedWindowDims := []
  scatterDimsToOperandDims := [0]
  indexVectorDim := 0
  wf := scatter_S64_S1_S60_0_n_0_0_wf
def scatter_S64_S1_S__n_0_0_0 : ScatterDims S64 S1 S_ where
  updateWindowDims := []
  insertedWindowDims := [0]
  scatterDimsToOperandDims := [0]
  indexVectorDim := 0
  wf := scatter_S64_S1_S__n_0_0_0_wf
def dot_S4096x120_S120x256_S4096x256_1_0_0_1_n_n : DotDims S4096x120 S120x256 S4096x256 where
  lhsContracting := [1]
  rhsContracting := [0]
  lhsNonContracting := [0]
  rhsNonContracting := [1]
  lhsBatch := []
  rhsBatch := []
  wf := dot_S4096x120_S120x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x66_S66x256_S4096x256_1_0_0_1_n_n : DotDims S4096x66 S66x256 S4096x256 where
  lhsContracting := [1]
  rhsContracting := [0]
  lhsNonContracting := [0]
  rhsNonContracting := [1]
  lhsBatch := []
  rhsBatch := []
  wf := dot_S4096x66_S66x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_v0) S3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x66.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S120x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S66x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S256x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22_0) S4096x60.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v22_1) S4096.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S131072x3 : Shape := ⟨2, ![131072, 3]⟩
abbrev S131072x66 : Shape := ⟨2, ![131072, 66]⟩
abbrev S120x256 : Shape := ⟨2, ![120, 256]⟩
abbrev S256 : Shape := ⟨1, ![256]⟩
abbrev S578x256 : Shape := ⟨2, ![578, 256]⟩
abbrev S256x1 : Shape := ⟨2, ![256, 1]⟩
abbrev S1 : Shape := ⟨1, ![1]⟩
abbrev S256x60 : Shape := ⟨2, ![256, 60]⟩
abbrev S60 : Shape := ⟨1, ![60]⟩
abbrev S_ : Shape := ⟨0, ![]⟩
abbrev S131072x3x1 : Shape := ⟨3, ![131072, 3, 1]⟩
abbrev S131072x3x256 : Shape := ⟨3, ![131072, 3, 256]⟩
abbrev S131072x256 : Shape := ⟨2, ![131072, 256]⟩
abbrev S1x256 : Shape := ⟨2, ![1, 256]⟩
abbrev S131072x578 : Shape := ⟨2, ![131072, 578]⟩
abbrev S131072x1 : Shape := ⟨2, ![131072, 1]⟩
abbrev S1x1 : Shape := ⟨2, ![1, 1]⟩
abbrev S131072 : Shape := ⟨1, ![131072]⟩
abbrev S131072x60 : Shape := ⟨2, ![131072, 60]⟩
abbrev S1x60 : Shape := ⟨2, ![1, 60]⟩

abbrev nBuf : Space → Nat
  | .hbm => 63
  | .vmem => 0
  | .smem => 0
  | _ => 0

abbrev bufTy : (tb : Table) → Fin (tcTables nBuf tb) → BufTy
  | .hbm, ⟨0, _⟩ => ⟨S131072x3, .i32⟩
  | .hbm, ⟨1, _⟩ => ⟨S131072x3, .i32⟩
  | .hbm, ⟨2, _⟩ => ⟨S131072x66, .f32⟩
  | .hbm, ⟨3, _⟩ => ⟨S120x256, .f32⟩
  | .hbm, ⟨4, _⟩ => ⟨S256, .f32⟩
  | .hbm, ⟨5, _⟩ => ⟨S578x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S256x60, .f32⟩
  | .hbm, ⟨10, _⟩ => ⟨S60, .f32⟩
  | .hbm, ⟨11, _⟩ => ⟨S_, .i32⟩
  | .hbm, ⟨12, _⟩ => ⟨S131072x3, .i32⟩
  | .hbm, ⟨13, _⟩ => ⟨S131072x3, .i1⟩
  | .hbm, ⟨14, _⟩ => ⟨S_, .i32⟩
  | .hbm, ⟨15, _⟩ => ⟨S131072x3, .i32⟩
  | .hbm, ⟨16, _⟩ => ⟨S131072x3, .i32⟩
  | .hbm, ⟨17, _⟩ => ⟨S131072x3, .i32⟩
  | .hbm, ⟨18, _⟩ => ⟨S131072x3x1, .i32⟩
  | .hbm, ⟨19, _⟩ => ⟨S131072x3x256, .f32⟩
  | .hbm, ⟨20, _⟩ => ⟨S_, .f32⟩
  | .hbm, ⟨21, _⟩ => ⟨S131072x256, .f32⟩
  | .hbm, ⟨22, _⟩ => ⟨S1x256, .f32⟩
  | .hbm, ⟨23, _⟩ => ⟨S131072x256, .f32⟩
  | .hbm, ⟨24, _⟩ => ⟨S131072x256, .f32⟩
  | .hbm, ⟨25, _⟩ => ⟨S_, .i32⟩
  | .hbm, ⟨26, _⟩ => ⟨S131072x3, .i32⟩
  | .hbm, ⟨27, _⟩ => ⟨S131072x3, .i1⟩
  | .hbm, ⟨28, _⟩ => ⟨S_, .i32⟩
  | .hbm, ⟨29, _⟩ => ⟨S131072x3, .i32⟩
  | .hbm, ⟨30, _⟩ => ⟨S131072x3, .i32⟩
  | .hbm, ⟨31, _⟩ => ⟨S131072x3, .i32⟩
  | .hbm, ⟨32, _⟩ => ⟨S131072x3x1, .i32⟩
  | .hbm, ⟨33, _⟩ => ⟨S131072x3x256, .f32⟩
  | .hbm, ⟨34, _⟩ => ⟨S_, .f32⟩
  | .hbm, ⟨35, _⟩ => ⟨S131072x256, .f32⟩
  | .hbm, ⟨36, _⟩ => ⟨S1x256, .f32⟩
  | .hbm, ⟨37, _⟩ => ⟨S131072x256, .f32⟩
  | .hbm, ⟨38, _⟩ => ⟨S131072x256, .f32⟩
  | .hbm, ⟨39, _⟩ => ⟨S_, .f32⟩
  | .hbm, ⟨40, _⟩ => ⟨S131072x256, .f32⟩
  | .hbm, ⟨41, _⟩ => ⟨S131072x256, .f32⟩
  | .hbm, ⟨42, _⟩ => ⟨S_, .f32⟩
  | .hbm, ⟨43, _⟩ => ⟨S131072x256, .f32⟩
  | .hbm, ⟨44, _⟩ => ⟨S131072x256, .f32⟩
  | .hbm, ⟨45, _⟩ => ⟨S131072x578, .f32⟩
  | .hbm, ⟨46, _⟩ => ⟨S131072x256, .f32⟩
  | .hbm, ⟨47, _⟩ => ⟨S1x256, .f32⟩
  | .hbm, ⟨48, _⟩ => ⟨S131072x256, .f32⟩
  | .hbm, ⟨49, _⟩ => ⟨S131072x256, .f32⟩
  | .hbm, ⟨50, _⟩ => ⟨S_, .f32⟩
  | .hbm, ⟨51, _⟩ => ⟨S131072x256, .f32⟩
  | .hbm, ⟨52, _⟩ => ⟨S131072x256, .f32⟩
  | .hbm, ⟨53, _⟩ => ⟨S131072x1, .f32⟩
  | .hbm, ⟨54, _⟩ => ⟨S1x1, .f32⟩
  | .hbm, ⟨55, _⟩ => ⟨S131072x1, .f32⟩
  | .hbm, ⟨56, _⟩ => ⟨S131072x1, .f32⟩
  | .hbm, ⟨57, _⟩ => ⟨S131072x1, .f32⟩
  | .hbm, ⟨58, _⟩ => ⟨S131072, .f32⟩
  | .hbm, ⟨59, _⟩ => ⟨S131072x60, .f32⟩
  | .hbm, ⟨60, _⟩ => ⟨S1x60, .f32⟩
  | .hbm, ⟨61, _⟩ => ⟨S131072x60, .f32⟩
  | .hbm, ⟨62, _⟩ => ⟨S131072x60, .f32⟩
  | _, _ => ⟨S131072x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_cst : Ref sig .tc := ⟨.hbm, 39, rfl⟩
abbrev main_call0_v0 : Ref sig .tc := ⟨.hbm, 40, rfl⟩
abbrev main_v22 : Ref sig .tc := ⟨.hbm, 41, rfl⟩
abbrev main_call1_cst : Ref sig .tc := ⟨.hbm, 42, rfl⟩
abbrev main_call1_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call2_cst : Ref sig .tc := ⟨.hbm, 50, rfl⟩
abbrev main_call2_v0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  bcast_S_S131072x3 : S_.BroadcastsInDim S131072x3 (![] : Fin 0 → Fin S131072x3.rank)
  bcast_S131072x3_S131072x3x1_0_1 : S131072x3.BroadcastsInDim S131072x3x1 (![0, 1] : Fin 2 → Fin S131072x3x1.rank)
  reducesTo_S131072x3x256_S131072x256_d1 : S131072x3x256.ReducesTo [1] S131072x256
  h_S_ : 0 < S_.numel
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  concatenates_S131072x256_S131072x256_S131072x66_S131072x578_d1 : Shape.Concatenates [S131072x256, S131072x256, S131072x66] S131072x578 1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x1_S131072 : S131072x1.ShapeCasts S131072
  bcast_S60_S1x60_1 : S60.BroadcastsInDim S1x60 (![1] : Fin 1 → Fin S1x60.rank)
  bcast_S1x60_S131072x60_0_1 : S1x60.BroadcastsInDim S131072x60 (![0, 1] : Fin 2 → Fin S131072x60.rank)
  gather_S120x256_S131072x3x1_S131072x3x256_2_0_n_n_0_2_1256_wf : GatherDims.WF S120x256 S131072x3x1 S131072x3x256 [2] [0] [] [0] [] 2 ![1, 256]
  dot_S131072x578_S578x256_S131072x256_1_0_0_1_n_n_wf : DotDims.WF S131072x578 S578x256 S131072x256 [1] [0] [0] [1] [] []
  dot_S131072x256_S256x1_S131072x1_1_0_0_1_n_n_wf : DotDims.WF S131072x256 S256x1 S131072x1 [1] [0] [0] [1] [] []
  dot_S131072x256_S256x60_S131072x60_1_0_0_1_n_n_wf : DotDims.WF S131072x256 S256x60 S131072x60 [1] [0] [0] [1] [] []

variable [Facts₀]

def gather_S120x256_S131072x3x1_S131072x3x256_2_0_n_n_0_2_1256 : GatherDims S120x256 S131072x3x1 S131072x3x256 where
  offsetDims := [2]
  collapsedSliceDims := [0]
  operandBatchingDims := []
  startIndicesBatchingDims := []
  startIndexMap := [0]
  indexVectorDim := 2
  sliceSizes := ![1, 256]
  wf := gather_S120x256_S131072x3x1_S131072x3x256_2_0_n_n_0_2_1256_wf
def dot_S131072x578_S578x256_S131072x256_1_0_0_1_n_n : DotDims S131072x578 S578x256 S131072x256 where
  lhsContracting := [1]
  rhsContracting := [0]
  lhsNonContracting := [0]
  rhsNonContracting := [1]
  lhsBatch := []
  rhsBatch := []
  wf := dot_S131072x578_S578x256_S131072x256_1_0_0_1_n_n_wf
def dot_S131072x256_S256x1_S131072x1_1_0_0_1_n_n : DotDims S131072x256 S256x1 S131072x1 where
  lhsContracting := [1]
  rhsContracting := [0]
  lhsNonContracting := [0]
  rhsNonContracting := [1]
  lhsBatch := []
  rhsBatch := []
  wf := dot_S131072x256_S256x1_S131072x1_1_0_0_1_n_n_wf
def dot_S131072x256_S256x60_S131072x60_1_0_0_1_n_n : DotDims S131072x256 S256x60 S131072x60 where
  lhsContracting := [1]
  rhsContracting := [0]
  lhsNonContracting := [0]
  rhsNonContracting := [1]
  lhsBatch := []
  rhsBatch := []
  wf := dot_S131072x256_S256x60_S131072x60_1_0_0_1_n_n_wf

class Facts : Prop extends Facts₀ where

variable [Facts]
-- ==== Proof.Spec.lean ====
/-
  The network both programs compute, as plain functions over extended reals, and the two laws of sums that join
  the two ways it is evaluated.

  A batch row carries three table indices per side, and 66 dense features. Per side, the ACCUMULATOR is the sum of
  the three table rows the indices select, plus a bias, clipped below at zero. The FIRST LAYER reads the two
  accumulators and the dense features side by side (578 inputs), applies a 578 x 256 matrix and a bias, and clips at
  zero. The POLICY head is a 256 x 60 matrix and a bias on the first layer's output; the VALUE head a 256-vector, a
  bias and tanh.

  The two laws. (1) Selecting table rows is a product with counts: if c j counts how many of three selected rows
  equal j (a sum of three 0/1 indicators), then the sum over j of c j * w j is the sum of the three selected
  entries. Indicators are non-negative, and on the extended reals (a + b) * x = a * x + b * x for non-negative a, b
  whatever x is, so the law needs no finiteness. (2) A sum over 578 = 256 + 256 + 66 terms is the sum of its three
  stretches.
-/
import Idealize.ShloMosaic.PureOps.Ideal
import Mathlib.Algebra.BigOperators.Fin
import Mathlib.Data.EReal.Operations

noncomputable section

namespace Cert.Net

open Idealize.ShloMosaic

/-- The table row an index word selects: its signed value, clamped into [0, 119]. -/
def row (x : BitVec 32) : Fin 120 := ⟨min x.toInt.toNat 119, by omega⟩

/-- One side's accumulator at feature f: the three selected table rows summed, the bias added, clipped at zero. -/
def acc (ftw : Fin 120 → Fin 256 → EReal) (ftb : Fin 256 → EReal) (r : Fin 3 → Fin 120) (f : Fin 256) : EReal :=
  max ((∑ k : Fin 3, ftw (r k) f) + ftb f) 0

/-- The first layer's 578 inputs: the two accumulators, then the dense features. -/
def cat (a a' : Fin 256 → EReal) (d : Fin 66 → EReal) (i : Fin 578) : EReal :=
  if h : i.val < 256 then a ⟨i.val, h⟩
  else if h' : i.val < 512 then a' ⟨i.val - 256, by omega⟩
  else d ⟨i.val - 512, by omega⟩

/-- The first layer at output j. -/
def hidden (w1 : Fin 578 → Fin 256 → EReal) (b1 : Fin 256 → EReal) (a a' : Fin 256 → EReal) (d : Fin 66 → EReal)
    (j : Fin 256) : EReal :=
  max ((∑ i : Fin 578, cat a a' d i * w1 i j) + b1 j) 0

/-- The policy head at output o. -/
def policy (wp : Fin 256 → Fin 60 → EReal) (bp : Fin 60 → EReal) (h : Fin 256 → EReal) (o : Fin 60) : EReal :=
  (∑ j : Fin 256, h j * wp j o) + bp o

/-- The value head. -/
def value (wv : Fin 256 → EReal) (bv : EReal) (h : Fin 256 → EReal) : EReal :=
  Ideal.tanh ((∑ j : Fin 256, h j * wv j) + bv)

/-! ## Selecting rows is a product with counts -/

theorem ind_nonneg {p : Prop} [Decidable p] : (0 : EReal) ≤ if p then 1 else 0 := by
  split <;> norm_num

/-- The sum over j of (an indicator of j = r) * w j is w r. -/
theorem sum_ind_mul (w : Fin 120 → EReal) (r : Fin 120) :
    ∑ j : Fin 120, (if j = r then (1 : EReal) else 0) * w j = w r := by
  simp only [ite_mul, one_mul, zero_mul, Finset.sum_ite_eq', Finset.mem_univ, if_true]

/-- Counts of three selected rows, times a column, summed: the three selected entries. -/
theorem sum_counts_mul (w : Fin 120 → EReal) (r0 r1 r2 : Fin 120) :
    ∑ j : Fin 120, (((0 + if j = r0 then (1 : EReal) else 0) + if j = r1 then (1 : EReal) else 0)
        + if j = r2 then (1 : EReal) else 0) * w j
      = w r0 + w r1 + w r2 := by
  have h : ∀ j : Fin 120, (((0 + if j = r0 then (1 : EReal) else 0) + if j = r1 then (1 : EReal) else 0)
        + if j = r2 then (1 : EReal) else 0) * w j
      = ((if j = r0 then (1 : EReal) else 0) * w j + (if j = r1 then (1 : EReal) else 0) * w j)
        + (if j = r2 then (1 : EReal) else 0) * w j := by
    intro j
    rw [zero_add, EReal.right_distrib_of_nonneg (add_nonneg ind_nonneg ind_nonneg) ind_nonneg,
      EReal.right_distrib_of_nonneg ind_nonneg ind_nonneg]
  simp only [h, Finset.sum_add_distrib, sum_ind_mul]

/-- The same with the three rows as a family. -/
theorem sum_counts_mul_fam (w : Fin 120 → EReal) (r : Fin 3 → Fin 120) :
    ∑ j : Fin 120, (((0 + if j = r 0 then (1 : EReal) else 0) + if j = r 1 then (1 : EReal) else 0)
        + if j = r 2 then (1 : EReal) else 0) * w j
      = ∑ k : Fin 3, w (r k) := by
  rw [sum_counts_mul, Fin.sum_univ_three]

/-! ## A sum over 578 terms by its three stretches -/

theorem sum_split578 (f : Fin 578 → EReal) :
    ∑ i : Fin 578, f i
      = ((∑ i : Fin 256, f ⟨i.val, by omega⟩) + ∑ i : Fin 256, f ⟨256 + i.val, by omega⟩)
        + ∑ i : Fin 66, f ⟨512 + i.val, by omega⟩ := by
  have e : ∑ i : Fin 578, f i = ∑ i : Fin (256 + 256 + 66), f (Fin.cast (by norm_num) i) :=
    (Fintype.sum_equiv (finCongr (by norm_num : 256 + 256 + 66 = 578)) _ _ (fun _ => rfl)).symm
  rw [e, Fin.sum_univ_add, Fin.sum_univ_add]
  rfl

/-- The first layer with its matrix given as three stretches of rows (256, 256 and 66 of them), evaluated as three
    partial products: over the first accumulator, the second, the dense features. -/
def hidden3 (wa wb : Fin 256 → Fin 256 → EReal) (wc : Fin 66 → Fin 256 → EReal) (b1 : Fin 256 → EReal)
    (a a' : Fin 256 → EReal) (d : Fin 66 → EReal) (j : Fin 256) : EReal :=
  max ((((∑ i : Fin 256, a i * wa i j) + ∑ i : Fin 256, a' i * wb i j) + ∑ i : Fin 66, d i * wc i j) + b1 j) 0

/-- The first layer evaluated as three partial products: over the first accumulator, the second, the dense features. -/
theorem hidden_eq_three (w1 : Fin 578 → Fin 256 → EReal) (b1 : Fin 256 → EReal) (a a' : Fin 256 → EReal)
    (d : Fin 66 → EReal) (j : Fin 256) :
    hidden w1 b1 a a' d j
      = max ((((∑ i : Fin 256, a i * w1 ⟨i.val, by omega⟩ j) + ∑ i : Fin 256, a' i * w1 ⟨256 + i.val, by omega⟩ j)
          + ∑ i : Fin 66, d i * w1 ⟨512 + i.val, by omega⟩ j) + b1 j) 0 := by
  have h1 : ∀ i : Fin 256, cat a a' d ⟨i.val, by omega⟩ = a i := fun i => by
    unfold cat
    rw [dif_pos (show (⟨i.val, by omega⟩ : Fin 578).val < 256 from i.isLt)]
  have h2 : ∀ i : Fin 256, cat a a' d ⟨256 + i.val, by omega⟩ = a' i := fun i => by
    unfold cat
    have n1 : ¬ (⟨256 + i.val, by omega⟩ : Fin 578).val < 256 := by show ¬ 256 + i.val < 256; omega
    have p2 : (⟨256 + i.val, by omega⟩ : Fin 578).val < 512 := by show 256 + i.val < 512; omega
    rw [dif_neg n1, dif_pos p2]
    exact congrArg a' (Fin.ext (by show 256 + i.val - 256 = i.val; omega))
  have h3 : ∀ i : Fin 66, cat a a' d ⟨512 + i.val, by omega⟩ = d i := fun i => by
    unfold cat
    have n1 : ¬ (⟨512 + i.val, by omega⟩ : Fin 578).val < 256 := by show ¬ 512 + i.val < 256; omega
    have n2 : ¬ (⟨512 + i.val, by omega⟩ : Fin 578).val < 512 := by show ¬ 512 + i.val < 512; omega
    rw [dif_neg n1, dif_neg n2]
    exact congrArg d (Fin.ext (by show 512 + i.val - 512 = i.val; omega))
  unfold hidden
  rw [sum_split578]
  simp only [h1, h2, h3]

/-- The first layer is its three-stretch form at the matrix's three stretches of rows. -/
theorem hidden_eq_hidden3 (w1 : Fin 578 → Fin 256 → EReal) (b1 : Fin 256 → EReal) (a a' : Fin 256 → EReal)
    (d : Fin 66 → EReal) :
    hidden w1 b1 a a' d
      = hidden3 (fun i => w1 ⟨i.val, by omega⟩) (fun i => w1 ⟨256 + i.val, by omega⟩)
          (fun i => w1 ⟨512 + i.val, by omega⟩) b1 a a' d :=
  funext fun j => hidden_eq_three w1 b1 a a' d j

end Cert.Net

end
-- ==== Proof.LibMatmulAt.lean ====
/-
  A PLAIN MATRIX PRODUCT READ AT AN INDEX. A tpu.matmul of an M x K block with a K x N matrix into the zero splat,
  at the ideal instance, read at (p, q): the sum over k of l (p, k) * r (k, q).

  The lemma takes the dimension numbers d as given and asks for the four facts that say which operand coordinate an
  output index j and a contraction index k are sent to (left: (j 0, k); right: (k, j 1)) and that the contraction
  shape has one axis of extent K. For a printed record with contracting dims [1] x [0] and no batch axes each is one
  line: the two non-contracting ones by unfolding DotDims.lhsIdx / rhsIdx at the literal axis (dif_neg on the batch
  list, dif_pos on the non-contracting list, both decided), the two contracting ones by
  DotDims.lhsIdx_val_of_single rfl / rhsIdx_val_of_single rfl, the contraction shape's by rfl.
-/
import Idealize.ShloMosaic.PureOps.Ideal.Laws
import Idealize.ShloMosaic.Lib.ValueIdx

noncomputable section

namespace Idealize.ShloMosaic.MatmulAt

open Idealize.ShloMosaic Idealize.ShloMosaic.ValueIdx

/-- A product of an M x K block with a K x N matrix into a zero accumulator, at (p, q): the sum over k of the
    entries' products, given where the dimension numbers send an output index and a contraction index. -/
theorem matmul_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (l0 : ∀ (j : (⟨2, ![M, N]⟩ : Shape).Idx) (q : d.contr.Idx), (d.lhsIdx j q 0).val = (j 0).val)
    (l1 : ∀ (j : (⟨2, ![M, N]⟩ : Shape).Idx) (q : d.contr.Idx), (d.lhsIdx j q 1).val = (q ⟨0, by omega⟩).val)
    (r0 : ∀ (j : (⟨2, ![M, N]⟩ : Shape).Idx) (q : d.contr.Idx), (d.rhsIdx j q 0).val = (q ⟨0, by omega⟩).val)
    (r1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

end Idealize.ShloMosaic.MatmulAt

end
-- ==== Proof.KernelPayload.lean ====
/-
  What the kernel body stores, read at one index of its output blocks.

  Over one batch block (4096 rows) the body computes, for block row p: the two accumulators from the three index
  words per side (read down the transposed 3 x 4096 index blocks), as a product of one-hot counts with the table;
  the first layer as three partial products; a fused head of 64 columns, of which columns 0..59 are stored as the
  policy and column 60, through tanh, as the value.

  The counts. Each index word is clamped into [0, 119] as a signed integer, which is the word of the table row it
  selects (Spec.lean's row). Entry (p, j) of a side's counts is 0 plus three indicators "j is the row word k
  selects": an equality test of the column number j with the clamped word, widened to 32 bits and converted to a
  float. A product of the counts with the table, at (p, f), is therefore the sum of the three selected rows' entries
  at f (Spec.lean's sum_counts_mul_fam).
-/
import proofs.«404441_j58291296141587_3_alg».proof.Proof.Gen.KernelIdeal.Frame
import proofs.«404441_j58291296141587_3_alg».proof.Proof.Spec
import proofs.«404441_j58291296141587_3_alg».proof.Proof.LibMatmulAt
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Predicate
import Idealize.ShloMosaic.PureOps.Ideal.Laws

noncomputable section

namespace Cert.KernelIdeal.Row

open Cert.KernelIdeal Cert.KernelIdeal.Gen Idealize.ShloMosaic Idealize.ShloMosaic.ValueIdx

/-- The first layer's output for block row p, from the blocks the body loads: the index blocks x0, x1 (3 x 4096,
    one column per row), the dense block x2, the table x3 and its bias x4, the first layer's matrix in three
    stretches x5, x6, x7 and its bias x8. -/
def khid (x0 x1 : Vec Ideal S3x4096 .i32) (x2 : Vec Ideal S4096x66 .f32) (x3 : Vec Ideal S120x256 .bf16)
    (x4 : Vec Ideal S256 .f32) (x5 x6 : Vec Ideal S256x256 .bf16) (x7 : Vec Ideal S66x256 .bf16)
    (x8 : Vec Ideal S256 .f32) (p : Fin 4096) : Fin 256 → EReal :=
  Net.hidden3 (fun i j => x5 (ix2 i j)) (fun i j => x6 (ix2 i j)) (fun i j => x7 (ix2 i j)) (fun j => x8 (ix1 j))
    (Net.acc (fun r f => x3 (ix2 r f)) (fun f => x4 (ix1 f)) (fun k => Net.row (x0 (ix2 k p))))
    (Net.acc (fun r f => x3 (ix2 r f)) (fun f => x4 (ix1 f)) (fun k => Net.row (x1 (ix2 k p))))
    (fun i => x2 (ix2 p i))

/-! ## Words -/

/-- Clamping a word into [0, 119] as a signed integer gives the word of the row it selects. -/
theorem clip_word (x : BitVec 32) :
    IntOp.minsi 119#32 (IntOp.maxsi 0#32 x) = BitVec.ofNat 32 (Net.row x).val := by
  have hx := BitVec.toInt_eq_toNat_cond x
  have hlt := x.isLt
  have h0 : (0#32 : BitVec 32).toInt = 0 := by decide
  have h119 : (119#32 : BitVec 32).toInt = 119 := by decide
  unfold IntOp.minsi IntOp.maxsi Net.row
  simp only [BitVec.slt_iff_toInt_lt, h0, h119]
  apply BitVec.eq_of_toNat_eq
  rw [BitVec.toNat_ofNat]
  split at hx <;> split <;> split <;> simp only [BitVec.toNat_ofNat, h0, h119] at * <;> omega

/-- Two row numbers below 120 are equal exactly when their words are. -/
theorem ofNat_inj120 (j r : Fin 120) : (BitVec.ofNat 32 j.val = BitVec.ofNat 32 r.val) ↔ j = r := by
  constructor
  · intro h
    have := congrArg BitVec.toNat h
    simp only [BitVec.toNat_ofNat] at this
    exact Fin.ext (by omega)
  · intro h; rw [h]

/-- The one-hot entry: the equality test of two row words, widened and converted, is the indicator. -/
theorem onehot_entry (j r : Fin 120) :
    (FloatOps.sitofp (F := Ideal) .f32 ((IntOp.cmpi .eq (BitVec.ofNat 32 j.val) (BitVec.ofNat 32 r.val)).setWidth 32) : EReal)
      = if j = r then 1 else 0 := by
  by_cases h : j = r
  · subst h
    have : IntOp.cmpi .eq (BitVec.ofNat 32 j.val) (BitVec.ofNat 32 j.val) = 1#1 := StableHlo.Predicate.cmpi_eq_iff.mpr rfl
    rw [this, if_pos rfl]
    show (((1#1 : BitVec 1).setWidth 32).toInt : ℝ) = (1 : EReal)
    have : ((1#1 : BitVec 1).setWidth 32).toInt = 1 := by decide
    rw [this]; norm_num
  · have hne : ¬ IntOp.cmpi .eq (BitVec.ofNat 32 j.val) (BitVec.ofNat 32 r.val) = 1#1 :=
      fun e => h ((ofNat_inj120 j r).mp (StableHlo.Predicate.cmpi_eq_iff.mp e))
    rw [eq_zero_of_ne_one hne, if_neg h]
    show (((0#1 : BitVec 1).setWidth 32).toInt : ℝ) = (0 : EReal)
    have : ((0#1 : BitVec 1).setWidth 32).toInt = 0 := by decide
    rw [this]; norm_num

/-! ## The index block: transposed, clamped, a column broadcast along the 120 rows -/

/-- The clamped, transposed index block at (p, k): the clamp of the index block's word at (k, p). -/
theorem clipped_apply (v : Vec Ideal S3x4096 .i32) (p : Fin 4096) (k : Fin 3) :
    (minsi (broadcast S4096x3 119#32) (maxsi (broadcast S4096x3 0#32)
      (transpose S4096x3 [1, 0] (shapeCast S3x4096 v shapeCasts_S3x4096_S3x4096) transposes_S3x4096_p1_0_S4096x3))) (ix2 p k)
      = BitVec.ofNat 32 (Net.row (v (ix2 k p))).val := by
  show IntOp.minsi 119#32 (IntOp.maxsi 0#32
      (transpose S4096x3 [1, 0] (shapeCast S3x4096 v shapeCasts_S3x4096_S3x4096) transposes_S3x4096_p1_0_S4096x3 (ix2 p k))) = _
  rw [transpose_ix2_apply, shapeCast_self, clip_word]

/-- Column k of a 4096 x 3 word array, broadcast along 120 columns, reads at (p, j) the array at (p, k). -/
theorem column_apply (w : IVec S4096x3 32) (k : Fin 3) (h : S4096x3.Slices ![0, k.val] S4096x1) (p : Fin 4096) (j : Fin 120) :
    broadcastTo S4096x120 (extractStridedSlice S4096x1 ![0, k.val] w h) broadcasts_S4096x1_S4096x120 (ix2 p j) = w (ix2 p k) := by
  rw [broadcastTo_apply _ broadcasts_S4096x1_S4096x120 (ix2 p j) (ix2 p (0 : Fin 1)) (fun a => by
    match a with
    | ⟨0, _⟩ => rfl
    | ⟨1, _⟩ => rfl)]
  exact extractStridedSlice_apply _ w h _ _ (fun a => by
    match a with
    | ⟨0, _⟩ => show p.val = 0 + p.val; omega
    | ⟨1, _⟩ => show k.val = k.val + 0; omega)

/-- The column number, as a word. -/
theorem iota_apply (p : Fin 4096) (j : Fin 120) :
    iota .tc S4096x120 32 [1] iota_S4096x120_d1_w32 (ix2 p j) = BitVec.ofNat 32 j.val :=
  iota_single_apply .tc S4096x120 32 1 iota_S4096x120_d1_w32 (ix2 p j)

/-- A one-hot term at an index where the two compared word arrays hold the words of rows j and r: the indicator of j = r. -/
theorem onehot_of (A B : IVec S4096x120 32) (i : S4096x120.Idx) (j r : Fin 120)
    (hA : A i = BitVec.ofNat 32 j.val) (hB : B i = BitVec.ofNat 32 r.val) :
    (truncf .bf16 (sitofp (F := Ideal) .f32 (extui 32 (cmpi .eq A B) natLt_1_32)) bitsLt_bf16_f32 : FVec Ideal S4096x120 .bf16) i
      = if j = r then 1 else 0 := by
  show FloatOps.sitofp (F := Ideal) .f32 ((IntOp.cmpi .eq (A i) (B i)).setWidth 32) = _
  rw [hA, hB, onehot_entry]

/-- The same before the change of format. -/
theorem onehot_of' (A B : IVec S4096x120 32) (i : S4096x120.Idx) (j r : Fin 120)
    (hA : A i = BitVec.ofNat 32 j.val) (hB : B i = BitVec.ofNat 32 r.val) :
    (sitofp (F := Ideal) .f32 (extui 32 (cmpi .eq A B) natLt_1_32) : FVec Ideal S4096x120 .f32) i
      = if j = r then 1 else 0 := by
  show FloatOps.sitofp (F := Ideal) .f32 ((IntOp.cmpi .eq (A i) (B i)).setWidth 32) = _
  rw [hA, hB, onehot_entry]

/-- The clamped index block's column k, broadcast along the 120 columns, at (p, j): the word of the row that word k of
    block row p selects. -/
theorem selcol_apply (v : Vec Ideal S3x4096 .i32) (k : Fin 3) (h : S4096x3.Slices ![0, k.val] S4096x1) (p : Fin 4096) (j : Fin 120) :
    broadcastTo S4096x120 (extractStridedSlice S4096x1 ![0, k.val]
        (minsi (broadcast S4096x3 119#32) (maxsi (broadcast S4096x3 0#32)
          (transpose S4096x3 [1, 0] (shapeCast S3x4096 v shapeCasts_S3x4096_S3x4096) transposes_S3x4096_p1_0_S4096x3))) h)
        broadcasts_S4096x1_S4096x120 (ix2 p j)
      = BitVec.ofNat 32 (Net.row (v (ix2 k p))).val :=
  (column_apply _ k h p j).trans (clipped_apply v p k)

/-! ## This kernel's four products -/

/-- The product through the 4096 x 120 by 120 x 256 dimension numbers of this kernel, at (p, q). -/
theorem mm_counts {φ₁ φ₂ : FTy} (l : FVec Ideal S4096x120 φ₁) (r : FVec Ideal S120x256 φ₂) (p : Fin 4096) (q : Fin 256) :
    matmul dot_S4096x120_S120x256_S4096x256_1_0_0_1_n_n none l r (constant S4096x256 .f32 0x00000000#32) (ix2 p q)
      = ∑ k : Fin 120, l (ix2 p k) * r (ix2 k q) :=
  MatmulAt.matmul_at dot_S4096x120_S120x256_S4096x256_1_0_0_1_n_n rfl rfl
    (fun j q => by
      unfold DotDims.lhsIdx
      rw [dif_neg (show ¬(0 : Fin S4096x120.rank) ∈ dot_S4096x120_S120x256_S4096x256_1_0_0_1_n_n.lhsBatch by decide),
        dif_pos (show (0 : Fin S4096x120.rank) ∈ dot_S4096x120_S120x256_S4096x256_1_0_0_1_n_n.lhsNonContracting by decide)]
      rfl)
    (fun j q => dot_S4096x120_S120x256_S4096x256_1_0_0_1_n_n.lhsIdx_val_of_single rfl j q)
    (fun j q => dot_S4096x120_S120x256_S4096x256_1_0_0_1_n_n.rhsIdx_val_of_single rfl j q)
    (fun j q => by
      unfold DotDims.rhsIdx
      rw [dif_neg (show ¬(1 : Fin S120x256.rank) ∈ dot_S4096x120_S120x256_S4096x256_1_0_0_1_n_n.rhsBatch by decide),
        dif_pos (show (1 : Fin S120x256.rank) ∈ dot_S4096x120_S120x256_S4096x256_1_0_0_1_n_n.rhsNonContracting by decide)]
      rfl)
    none l r p q

/-- The product through the 4096 x 256 by 256 x 256 dimension numbers of this kernel, at (p, q). -/
theorem mm_acc {φ₁ φ₂ : FTy} (l : FVec Ideal S4096x256 φ₁) (r : FVec Ideal S256x256 φ₂) (p : Fin 4096) (q : Fin 256) :
    matmul dot_S4096x256_S256x256_S4096x256_1_0_0_1_n_n none l r (constant S4096x256 .f32 0x00000000#32) (ix2 p q)
      = ∑ k : Fin 256, l (ix2 p k) * r (ix2 k q) :=
  MatmulAt.matmul_at dot_S4096x256_S256x256_S4096x256_1_0_0_1_n_n rfl rfl
    (fun j q => by
      unfold DotDims.lhsIdx
      rw [dif_neg (show ¬(0 : Fin S4096x256.rank) ∈ dot_S4096x256_S256x256_S4096x256_1_0_0_1_n_n.lhsBatch by decide),
        dif_pos (show (0 : Fin S4096x256.rank) ∈ dot_S4096x256_S256x256_S4096x256_1_0_0_1_n_n.lhsNonContracting by decide)]
      rfl)
    (fun j q => dot_S4096x256_S256x256_S4096x256_1_0_0_1_n_n.lhsIdx_val_of_single rfl j q)
    (fun j q => dot_S4096x256_S256x256_S4096x256_1_0_0_1_n_n.rhsIdx_val_of_single rfl j q)
    (fun j q => by
      unfold DotDims.rhsIdx
      rw [dif_neg (show ¬(1 : Fin S256x256.rank) ∈ dot_S4096x256_S256x256_S4096x256_1_0_0_1_n_n.rhsBatch by decide),
        dif_pos (show (1 : Fin S256x256.rank) ∈ dot_S4096x256_S256x256_S4096x256_1_0_0_1_n_n.rhsNonContracting by decide)]
      rfl)
    none l r p q

/-- The product through the 4096 x 66 by 66 x 256 dimension numbers of this kernel, at (p, q). -/
theorem mm_dense {φ₁ φ₂ : FTy} (l : FVec Ideal S4096x66 φ₁) (r : FVec Ideal S66x256 φ₂) (p : Fin 4096) (q : Fin 256) :
    matmul dot_S4096x66_S66x256_S4096x256_1_0_0_1_n_n none l r (constant S4096x256 .f32 0x00000000#32) (ix2 p q)
      = ∑ k : Fin 66, l (ix2 p k) * r (ix2 k q) :=
  MatmulAt.matmul_at dot_S4096x66_S66x256_S4096x256_1_0_0_1_n_n rfl rfl
    (fun j q => by
      unfold DotDims.lhsIdx
      rw [dif_neg (show ¬(0 : Fin S4096x66.rank) ∈ dot_S4096x66_S66x256_S4096x256_1_0_0_1_n_n.lhsBatch by decide),
        dif_pos (show (0 : Fin S4096x66.rank) ∈ dot_S4096x66_S66x256_S4096x256_1_0_0_1_n_n.lhsNonContracting by decide)]
      rfl)
    (fun j q => dot_S4096x66_S66x256_S4096x256_1_0_0_1_n_n.lhsIdx_val_of_single rfl j q)
    (fun j q => dot_S4096x66_S66x256_S4096x256_1_0_0_1_n_n.rhsIdx_val_of_single rfl j q)
    (fun j q => by
      unfold DotDims.rhsIdx
      rw [dif_neg (show ¬(1 : Fin S66x256.rank) ∈ dot_S4096x66_S66x256_S4096x256_1_0_0_1_n_n.rhsBatch by decide),
        dif_pos (show (1 : Fin S66x256.rank) ∈ dot_S4096x66_S66x256_S4096x256_1_0_0_1_n_n.rhsNonContracting by decide)]
      rfl)
    none l r p q

/-- The product through the 4096 x 256 by 256 x 64 dimension numbers of this kernel, at (p, q). -/
theorem mm_head {φ₁ φ₂ : FTy} (l : FVec Ideal S4096x256 φ₁) (r : FVec Ideal S256x64 φ₂) (p : Fin 4096) (q : Fin 64) :
    matmul dot_S4096x256_S256x64_S4096x64_1_0_0_1_n_n none l r (constant S4096x64 .f32 0x00000000#32) (ix2 p q)
      = ∑ k : Fin 256, l (ix2 p k) * r (ix2 k q) :=
  MatmulAt.matmul_at dot_S4096x256_S256x64_S4096x64_1_0_0_1_n_n rfl rfl
    (fun j q => by
      unfold DotDims.lhsIdx
      rw [dif_neg (show ¬(0 : Fin S4096x256.rank) ∈ dot_S4096x256_S256x64_S4096x64_1_0_0_1_n_n.lhsBatch by decide),
        dif_pos (show (0 : Fin S4096x256.rank) ∈ dot_S4096x256_S256x64_S4096x64_1_0_0_1_n_n.lhsNonContracting by decide)]
      rfl)
    (fun j q => dot_S4096x256_S256x64_S4096x64_1_0_0_1_n_n.lhsIdx_val_of_single rfl j q)
    (fun j q => dot_S4096x256_S256x64_S4096x64_1_0_0_1_n_n.rhsIdx_val_of_single rfl j q)
    (fun j q => by
      unfold DotDims.rhsIdx
      rw [dif_neg (show ¬(1 : Fin S256x64.rank) ∈ dot_S4096x256_S256x64_S4096x64_1_0_0_1_n_n.rhsBatch by decide),
        dif_pos (show (1 : Fin S256x64.rank) ∈ dot_S4096x256_S256x64_S4096x64_1_0_0_1_n_n.rhsNonContracting by decide)]
      rfl)
    none l r p q

/-! ## Biases and the zero splat -/

/-- A 256-vector laid as a row and broadcast down 4096 rows reads, at (p, f), its entry f. -/
theorem biasrow256_apply (b : Vec Ideal S256 .f32) (p : Fin 4096) (f : Fin 256) :
    broadcastTo S4096x256 (shapeCast S1x256 b shapeCasts_S256_S1x256) broadcasts_S1x256_S4096x256 (ix2 p f) = b (ix1 f) := by
  rw [broadcastTo_apply _ broadcasts_S1x256_S4096x256 (ix2 p f) (ix2 (0 : Fin 1) f) (fun a => by
    match a with
    | ⟨0, _⟩ => rfl
    | ⟨1, _⟩ => rfl)]
  exact shapeCast_apply b shapeCasts_S256_S1x256 _ (ix1 f)
    (by rw [Shape.rowMajor_val_one, Shape.rowMajor_val_two]; show f.val = 0 * 256 + f.val; omega)

/-- A 64-vector laid as a row and broadcast down 4096 rows reads, at (p, o), its entry o. -/
theorem biasrow64_apply (b : Vec Ideal S64 .f32) (p : Fin 4096) (o : Fin 64) :
    broadcastTo S4096x64 (shapeCast S1x64 (shapeCast S64 b shapeCasts_S64_S64) shapeCasts_S64_S1x64) broadcasts_S1x64_S4096x64 (ix2 p o)
      = b (ix1 o) := by
  rw [broadcastTo_apply _ broadcasts_S1x64_S4096x64 (ix2 p o) (ix2 (0 : Fin 1) o) (fun a => by
    match a with
    | ⟨0, _⟩ => rfl
    | ⟨1, _⟩ => rfl), shapeCast_self]
  exact shapeCast_apply b shapeCasts_S64_S1x64 _ (ix1 o)
    (by rw [Shape.rowMajor_val_one, Shape.rowMajor_val_two]; show o.val = 0 * 64 + o.val; omega)

/-- The indicator of j = r as an extended real. -/
abbrev ind (j r : Fin 120) : EReal := if j = r then 1 else 0

/-! ## An accumulator: counts times the table, plus the bias, clipped at zero -/

theorem acc_of (cnt : FVec Ideal S4096x120 .bf16) (tbl : Vec Ideal S120x256 .bf16) (bias : Vec Ideal S256 .f32)
    (p : Fin 4096) (f : Fin 256) (r : Fin 3 → Fin 120)
    (hc : ∀ j : Fin 120, cnt (ix2 p j) = ((0 + ind j (r 0)) + ind j (r 1)) + ind j (r 2)) :
    (truncf .bf16 (maximumf (addf (matmul dot_S4096x120_S120x256_S4096x256_1_0_0_1_n_n none cnt
        (shapeCast S120x256 tbl shapeCasts_S120x256_S120x256 : FVec Ideal S120x256 .bf16) (constant S4096x256 .f32 0x00000000#32))
        (broadcastTo S4096x256 (shapeCast S1x256 bias shapeCasts_S256_S1x256 : FVec Ideal S1x256 .f32) broadcasts_S1x256_S4096x256))
        (broadcast S4096x256 (Scalar.ofBits (F := Ideal) .f32 0x00000000#32))) bitsLt_bf16_f32 : FVec Ideal S4096x256 .bf16) (ix2 p f)
      = Net.acc (fun r f => tbl (ix2 r f)) (fun f => bias (ix1 f)) r f := by
  show max (matmul dot_S4096x120_S120x256_S4096x256_1_0_0_1_n_n none cnt
        (shapeCast S120x256 tbl shapeCasts_S120x256_S120x256 : FVec Ideal S120x256 .bf16) (constant S4096x256 .f32 0x00000000#32) (ix2 p f)
        + broadcastTo S4096x256 (shapeCast S1x256 bias shapeCasts_S256_S1x256 : FVec Ideal S1x256 .f32) broadcasts_S1x256_S4096x256 (ix2 p f))
      (Ideal.ofBits .f32 0x00000000#32) = _
  rw [mm_counts, shapeCast_self, biasrow256_apply, Ideal.ofBits_zero_f32]
  unfold Net.acc
  rw [← Net.sum_counts_mul_fam (fun j => tbl (ix2 j f)) r]
  refine congrArg (fun x => max (x + bias (ix1 f)) 0) (Finset.sum_congr rfl fun j _ => ?_)
  rw [hc j]

/-! ## Sums of vectors at an index -/

theorem add_of {S : Shape} {φ : FTy} (A B : FVec Ideal S φ) (i : S.Idx) (x y : EReal) (hA : A i = x) (hB : B i = y) :
    addf A B i = x + y := by
  show A i + B i = _
  rw [hA, hB]

theorem zero120_apply (i : S4096x120.Idx) :
    (broadcast S4096x120 (Scalar.ofBits (F := Ideal) .bf16 0x0000#16) : FVec Ideal S4096x120 .bf16) i = 0 := by
  show Ideal.ofBits .bf16 0x0000#16 = 0
  exact Ideal.ofBits_zero_bf16

/-! ## The first side's counts -/

theorem pay4_apply (v1 : Vec Ideal S3x4096 .i32) (p : Fin 4096) (j : Fin 120) :
    k0_pay4 v1 (ix2 p j)
      = ((0 + ind j (Net.row (v1 (ix2 0 p)))) + ind j (Net.row (v1 (ix2 1 p)))) + ind j (Net.row (v1 (ix2 2 p))) := by
  unfold k0_pay4
  exact add_of _ _ _ _ _
    (add_of _ _ _ _ _
      (add_of _ _ _ _ _ (zero120_apply _) (onehot_of _ _ _ j _ (iota_apply p j) (selcol_apply v1 0 _ p j)))
      (onehot_of _ _ _ j _ (iota_apply p j) (selcol_apply v1 1 _ p j)))
    (onehot_of _ _ _ j _ (iota_apply p j) (selcol_apply v1 2 _ p j))

/-! ## The second side's pieces -/

theorem pay5_apply (v30 : Vec Ideal S3x4096 .i32) (p : Fin 4096) (k : Fin 3) :
    k0_pay5 (F := Ideal) v30 (ix2 p k) = BitVec.ofNat 32 (Net.row (v30 (ix2 k p))).val := by
  unfold k0_pay5
  exact clipped_apply v30 p k

theorem pay6_apply (v30 : Vec Ideal S3x4096 .i32) (p : Fin 4096) (j : Fin 120) :
    k0_pay6 v30 (ix2 p j) = 0 + ind j (Net.row (v30 (ix2 0 p))) := by
  unfold k0_pay6
  exact add_of _ _ _ _ _ (zero120_apply _)
    (onehot_of _ _ _ j _ (iota_apply p j) ((column_apply _ 0 _ p j).trans (pay5_apply v30 p 0)))

theorem extui_cmpi_of (A B : IVec S4096x120 32) (i : S4096x120.Idx) (a b : BitVec 32) (hA : A i = a) (hB : B i = b) :
    extui 32 (cmpi .eq A B) natLt_1_32 i = (IntOp.cmpi .eq a b).setWidth 32 := by
  show (IntOp.cmpi .eq (A i) (B i)).setWidth 32 = _
  rw [hA, hB]

theorem pay7_apply (v30 : Vec Ideal S3x4096 .i32) (p : Fin 4096) (j : Fin 120) :
    k0_pay7 (F := Ideal) v30 (ix2 p j)
      = (IntOp.cmpi .eq (BitVec.ofNat 32 j.val) (BitVec.ofNat 32 (Net.row (v30 (ix2 1 p))).val)).setWidth 32 := by
  unfold k0_pay7
  exact extui_cmpi_of _ _ _ _ _ (iota_apply p j) ((column_apply _ 1 _ p j).trans (pay5_apply v30 p 1))

/-! ## The two accumulators' partial products -/

theorem mm_acc_of (L : FVec Ideal S4096x256 .bf16) (R : Vec Ideal S256x256 .bf16) (p : Fin 4096) (q : Fin 256)
    (a : Fin 256 → EReal) (hL : ∀ i : Fin 256, L (ix2 p i) = a i) :
    matmul dot_S4096x256_S256x256_S4096x256_1_0_0_1_n_n none L
        (shapeCast S256x256 R shapeCasts_S256x256_S256x256 : FVec Ideal S256x256 .bf16) (constant S4096x256 .f32 0x00000000#32) (ix2 p q)
      = ∑ i : Fin 256, a i * R (ix2 i q) := by
  rw [mm_acc, shapeCast_self]
  exact Finset.sum_congr rfl fun i _ => by rw [hL i]

theorem sitofp_word_of (W : IVec S4096x120 32) (i : S4096x120.Idx) (j r : Fin 120)
    (hW : W i = (IntOp.cmpi .eq (BitVec.ofNat 32 j.val) (BitVec.ofNat 32 r.val)).setWidth 32) :
    (truncf .bf16 (sitofp (F := Ideal) .f32 W) bitsLt_bf16_f32 : FVec Ideal S4096x120 .bf16) i = ind j r := by
  show FloatOps.sitofp (F := Ideal) .f32 (W i) = _
  rw [hW, onehot_entry]

theorem pay8_apply (v0 : IVec S4096x120 32) (v29 : FVec Ideal S4096x120 .bf16) (v36 : IVec S4096x3 32)
    (v44 : FVec Ideal S4096x120 .bf16) (v48 : IVec S4096x120 32) (v59 : Vec Ideal S120x256 .bf16) (v62 : Vec Ideal S256 .f32)
    (v66 : Vec Ideal S120x256 .bf16) (v69 : Vec Ideal S256 .f32) (v78 v82 : Vec Ideal S256x256 .bf16)
    (p : Fin 4096) (q : Fin 256) (rs rn : Fin 3 → Fin 120)
    (h0 : ∀ j : Fin 120, v0 (ix2 p j) = BitVec.ofNat 32 j.val)
    (h29 : ∀ j : Fin 120, v29 (ix2 p j) = ((0 + ind j (rs 0)) + ind j (rs 1)) + ind j (rs 2))
    (h36 : v36 (ix2 p 2) = BitVec.ofNat 32 (rn 2).val)
    (h44 : ∀ j : Fin 120, v44 (ix2 p j) = 0 + ind j (rn 0))
    (h48 : ∀ j : Fin 120, v48 (ix2 p j) = (IntOp.cmpi .eq (BitVec.ofNat 32 j.val) (BitVec.ofNat 32 (rn 1).val)).setWidth 32) :
    k0_pay8 v0 v29 v36 v44 v48 v59 v62 v66 v69 v78 v82 (ix2 p q)
      = (∑ i : Fin 256, Net.acc (fun r f => v59 (ix2 r f)) (fun f => v62 (ix1 f)) rs i * v78 (ix2 i q))
        + ∑ i : Fin 256, Net.acc (fun r f => v66 (ix2 r f)) (fun f => v69 (ix1 f)) rn i * v82 (ix2 i q) := by
  unfold k0_pay8
  exact add_of _ _ _ _ _
    (mm_acc_of _ v78 p q _ (fun i => acc_of v29 v59 v62 p i rs h29))
    (mm_acc_of _ v82 p q _ (fun i => acc_of _ v66 v69 p i rn (fun j =>
      add_of _ _ _ _ _ (add_of _ _ _ _ _ (h44 j) (sitofp_word_of v48 _ j (rn 1) (h48 j)))
        (onehot_of _ _ _ j (rn 2) (h0 j) ((column_apply v36 2 _ p j).trans h36)))))

/-! ## The first layer and the fused head -/

theorem mm_head_of (L : FVec Ideal S4096x256 .bf16) (R : Vec Ideal S256x64 .bf16) (p : Fin 4096) (o : Fin 64)
    (a : Fin 256 → EReal) (hL : ∀ j : Fin 256, L (ix2 p j) = a j) :
    matmul dot_S4096x256_S256x64_S4096x64_1_0_0_1_n_n none L
        (shapeCast S256x64 R shapeCasts_S256x64_S256x64 : FVec Ideal S256x64 .bf16) (constant S4096x64 .f32 0x00000000#32) (ix2 p o)
      = ∑ j : Fin 256, a j * R (ix2 j o) := by
  rw [mm_head, shapeCast_self]
  exact Finset.sum_congr rfl fun j _ => by rw [hL j]

/-- The first layer's entry (p, j): the two accumulators' partial products s j, the dense features' partial product,
    the bias, clipped at zero. -/
theorem layer1_of (v85 : FVec Ideal S4096x256 .f32) (v87 : FVec Ideal S4096x66 .bf16) (v88 : Vec Ideal S66x256 .bf16)
    (v92 : Vec Ideal S256 .f32) (p : Fin 4096) (j : Fin 256) (s : EReal) (hs : v85 (ix2 p j) = s) :
    (truncf .bf16 (maximumf (addf (addf v85 (matmul dot_S4096x66_S66x256_S4096x256_1_0_0_1_n_n none v87
        (shapeCast S66x256 v88 shapeCasts_S66x256_S66x256 : FVec Ideal S66x256 .bf16) (constant S4096x256 .f32 0x00000000#32)))
        (broadcastTo S4096x256 (shapeCast S1x256 v92 shapeCasts_S256_S1x256 : FVec Ideal S1x256 .f32) broadcasts_S1x256_S4096x256))
        (broadcast S4096x256 (Scalar.ofBits (F := Ideal) .f32 0x00000000#32))) bitsLt_bf16_f32 : FVec Ideal S4096x256 .bf16) (ix2 p j)
      = max ((s + ∑ i : Fin 66, v87 (ix2 p i) * v88 (ix2 i j)) + v92 (ix1 j)) 0 := by
  show max ((v85 (ix2 p j) + matmul dot_S4096x66_S66x256_S4096x256_1_0_0_1_n_n none v87
        (shapeCast S66x256 v88 shapeCasts_S66x256_S66x256 : FVec Ideal S66x256 .bf16) (constant S4096x256 .f32 0x00000000#32) (ix2 p j))
        + broadcastTo S4096x256 (shapeCast S1x256 v92 shapeCasts_S256_S1x256 : FVec Ideal S1x256 .f32) broadcasts_S1x256_S4096x256 (ix2 p j))
      (Ideal.ofBits .f32 0x00000000#32) = _
  rw [hs, mm_dense, shapeCast_self, biasrow256_apply, Ideal.ofBits_zero_f32]

theorem pay1_apply (v85 : FVec Ideal S4096x256 .f32) (v87 : FVec Ideal S4096x66 .bf16) (v88 : Vec Ideal S66x256 .bf16)
    (v92 : Vec Ideal S256 .f32) (v99 : Vec Ideal S256x64 .bf16) (v102 : Vec Ideal S64 .f32) (p : Fin 4096) (o : Fin 64)
    (s : Fin 256 → EReal) (hs : ∀ j : Fin 256, v85 (ix2 p j) = s j) :
    k0_pay1 v85 v87 v88 v92 v99 v102 (ix2 p o)
      = (∑ j : Fin 256, max ((s j + ∑ i : Fin 66, v87 (ix2 p i) * v88 (ix2 i j)) + v92 (ix1 j)) 0 * v99 (ix2 j o))
        + v102 (ix1 o) := by
  unfold k0_pay1
  exact add_of _ _ _ _ _
    (mm_head_of _ v99 p o _ (fun j => layer1_of v85 v87 v88 v92 p j (s j) (hs j)))
    (biasrow64_apply v102 p o)

/-- The policy store: columns 0..59 of the fused head. -/
theorem pay2_apply (v85 : FVec Ideal S4096x256 .f32) (v87 : FVec Ideal S4096x66 .bf16) (v88 : Vec Ideal S66x256 .bf16)
    (v92 : Vec Ideal S256 .f32) (v99 : Vec Ideal S256x64 .bf16) (v102 : Vec Ideal S64 .f32) (p : Fin 4096) (q : Fin 60) :
    k0_pay2 v85 v87 v88 v92 v99 v102 (ix2 p q) = k0_pay1 v85 v87 v88 v92 v99 v102 (ix2 p (⟨q.val, by omega⟩ : Fin 64)) := by
  unfold k0_pay2
  exact extractStridedSlice_apply _ _ slices_S4096x64_o0_0_S4096x60 _ _ (fun a => by
    match a with
    | ⟨0, _⟩ => show p.val = 0 + p.val; omega
    | ⟨1, _⟩ => show q.val = 0 + q.val; omega)

/-- The value store: tanh of column 60 of the fused head. -/
theorem pay3_apply (v85 : FVec Ideal S4096x256 .f32) (v87 : FVec Ideal S4096x66 .bf16) (v88 : Vec Ideal S66x256 .bf16)
    (v92 : Vec Ideal S256 .f32) (v99 : Vec Ideal S256x64 .bf16) (v102 : Vec Ideal S64 .f32) (p : Fin 4096) :
    k0_pay3 v85 v87 v88 v92 v99 v102 (ix1 p)
      = Ideal.tanh (k0_pay1 v85 v87 v88 v92 v99 v102 (ix2 p (⟨60, by omega⟩ : Fin 64))) := by
  unfold k0_pay3
  show Ideal.tanh (shapeCast S4096 (extractStridedSlice S4096x1 ![0, 60] (k0_pay1 v85 v87 v88 v92 v99 v102) slices_S4096x64_o0_60_S4096x1)
    shapeCasts_S4096x1_S4096 (ix1 p)) = _
  rw [shapeCast_apply _ shapeCasts_S4096x1_S4096 (ix1 p) (ix2 p (0 : Fin 1))
    (by rw [Shape.rowMajor_val_one, Shape.rowMajor_val_two]; show p.val * 1 + 0 = p.val; omega)]
  exact congrArg Ideal.tanh (extractStridedSlice_apply _ _ slices_S4096x64_o0_60_S4096x1 _ _ (fun a => by
    match a with
    | ⟨0, _⟩ => show p.val = 0 + p.val; omega
    | ⟨1, _⟩ => show 60 = 60 + 0; omega))

theorem pay9_apply (v86 : Vec Ideal S4096x66 .f32) (i : S4096x66.Idx) : k0_pay9 v86 i = v86 i := rfl

/-! ## The body's stores -/

theorem hz2 : (![0, 0] : Fin 2 → Nat) = fun _ => 0 := by
  funext a; match a with | ⟨0, _⟩ => rfl | ⟨1, _⟩ => rfl
theorem hz1 : (![0] : Fin 1 → Nat) = fun _ => 0 := by
  funext a; match a with | ⟨0, _⟩ => rfl

/-- The fused head at (p, o), from the blocks: the head's matrix x9 and bias x10 on the first layer khid. -/
theorem head_apply (x0 x1 : Vec Ideal S3x4096 .i32) (x2 : Vec Ideal S4096x66 .f32) (x3 : Vec Ideal S120x256 .bf16)
    (x4 : Vec Ideal S256 .f32) (x5 x6 : Vec Ideal S256x256 .bf16) (x7 : Vec Ideal S66x256 .bf16)
    (x8 : Vec Ideal S256 .f32) (x9 : Vec Ideal S256x64 .bf16) (x10 : Vec Ideal S64 .f32) (p : Fin 4096) (o : Fin 64) :
    k0_pay1 (k0_pay8 (iota .tc S4096x120 32 [1] iota_S4096x120_d1_w32) (k0_pay4 x0) (k0_pay5 x1) (k0_pay6 x1) (k0_pay7 x1)
        x3 x4 x3 x4 x5 x6) (k0_pay9 x2) x7 x8 x9 x10 (ix2 p o)
      = (∑ j : Fin 256, khid x0 x1 x2 x3 x4 x5 x6 x7 x8 p j * x9 (ix2 j o)) + x10 (ix1 o) := by
  rw [pay1_apply _ _ _ _ _ _ p o _ (fun j => pay8_apply _ _ _ _ _ x3 x4 x3 x4 x5 x6 p j
    (fun k => Net.row (x0 (ix2 k p))) (fun k => Net.row (x1 (ix2 k p)))
    (iota_apply p) (pay4_apply x0 p) (pay5_apply x1 p 2) (pay6_apply x1 p) (pay7_apply x1 p))]
  rfl

/-- The policy block at (p, q): the policy head, read off columns 0..59 of the fused head x9, x10. -/
theorem out11_apply (x0 x1 : Vec Ideal S3x4096 .i32) (x2 : Vec Ideal S4096x66 .f32) (x3 : Vec Ideal S120x256 .bf16)
    (x4 : Vec Ideal S256 .f32) (x5 x6 : Vec Ideal S256x256 .bf16) (x7 : Vec Ideal S66x256 .bf16)
    (x8 : Vec Ideal S256 .f32) (x9 : Vec Ideal S256x64 .bf16) (x10 : Vec Ideal S64 .f32) (p : Fin 4096) (q : Fin 60) :
    out0_11 (F := Ideal) x0 x1 x2 x3 x4 x5 x6 x7 x8 x9 x10 (ix2 p q)
      = Net.policy (fun j o => x9 (ix2 j ⟨o.val, by omega⟩)) (fun o => x10 (ix1 ⟨o.val, by omega⟩))
          (khid x0 x1 x2 x3 x4 x5 x6 x7 x8 p) q := by
  unfold out0_11
  rw [View.canon_unit_zero hz2]
  simp only [View.ld_unit_zero (S := S3x4096) hz2, View.ld_unit_zero (S := S4096x66) hz2,
    View.ld_unit_zero (S := S120x256) hz2, View.ld_unit_zero (S := S256) hz1, View.ld_unit_zero (S := S256x256) hz2,
    View.ld_unit_zero (S := S66x256) hz2, View.ld_unit_zero (S := S256x64) hz2, View.ld_unit_zero (S := S64) hz1]
  rw [pay2_apply, head_apply]
  rfl

/-- The value block at p: the value head, read off column 60 of the fused head. -/
theorem out12_apply (x0 x1 : Vec Ideal S3x4096 .i32) (x2 : Vec Ideal S4096x66 .f32) (x3 : Vec Ideal S120x256 .bf16)
    (x4 : Vec Ideal S256 .f32) (x5 x6 : Vec Ideal S256x256 .bf16) (x7 : Vec Ideal S66x256 .bf16)
    (x8 : Vec Ideal S256 .f32) (x9 : Vec Ideal S256x64 .bf16) (x10 : Vec Ideal S64 .f32) (p : Fin 4096) :
    out0_12 (F := Ideal) x0 x1 x2 x3 x4 x5 x6 x7 x8 x9 x10 (ix1 p)
      = Net.value (fun j => x9 (ix2 j ⟨60, by omega⟩)) (x10 (ix1 ⟨60, by omega⟩))
          (khid x0 x1 x2 x3 x4 x5 x6 x7 x8 p) := by
  unfold out0_12
  rw [View.canon_unit_zero hz1]
  simp only [View.ld_unit_zero (S := S3x4096) hz2, View.ld_unit_zero (S := S4096x66) hz2,
    View.ld_unit_zero (S := S120x256) hz2, View.ld_unit_zero (S := S256) hz1, View.ld_unit_zero (S := S256x256) hz2,
    View.ld_unit_zero (S := S66x256) hz2, View.ld_unit_zero (S := S256x64) hz2, View.ld_unit_zero (S := S64) hz1]
  rw [pay3_apply, head_apply]
  rfl

end Cert.KernelIdeal.Row

end
-- ==== Proof.KernelValue.lean ====
/-
  From blocks to arrays. Grid point t handles batch rows 4096 t .. 4096 t + 4095: it reads columns of the
  transposed index arrays and rows of the dense array in that range, and every weight whole; it writes that range of
  rows of the policy array and of the value array. So after the launch the policy array at (b, o) and the value
  array at b are the body's stores for block row b mod 4096 at point b / 4096, that is, the network on row b of the
  arrays the launch finds.
-/
import proofs.«404441_j58291296141587_3_alg».proof.Proof.Gen.KernelIdeal.Value
import proofs.«404441_j58291296141587_3_alg».proof.Proof.KernelPayload
import Idealize.ShloMosaic.Lib.ValueIdx
import Idealize.ShloMosaic.Lib.Pipeline.Value

set_option maxRecDepth 16384

noncomputable section

namespace Cert.KernelIdeal.BlockValue

open Cert.KernelIdeal Cert.KernelIdeal.Gen Cert.KernelIdeal.Value Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The first layer's output for batch row b, from the arrays the launch finds. -/
def vhid (c : Dev nD) (b : Fin 131072) : Fin 256 → EReal :=
  Net.hidden3 (fun i j => (V m c main_v3 : S256x256.Idx → EReal) (ix2 i j))
    (fun i j => (V m c main_v5 : S256x256.Idx → EReal) (ix2 i j))
    (fun i j => (V m c main_v7 : S66x256.Idx → EReal) (ix2 i j))
    (fun j => (V m c main_arg6 : S256.Idx → EReal) (ix1 j))
    (Net.acc (fun r f => (V m c main_v21 : S120x256.Idx → EReal) (ix2 r f)) (fun f => (V m c main_arg4 : S256.Idx → EReal) (ix1 f))
      (fun k => Net.row ((V m c main_v0 : S3x131072.Idx → BitVec 32) (ix2 k b))))
    (Net.acc (fun r f => (V m c main_v21 : S120x256.Idx → EReal) (ix2 r f)) (fun f => (V m c main_arg4 : S256.Idx → EReal) (ix1 f))
      (fun k => Net.row ((V m c main_v1 : S3x131072.Idx → BitVec 32) (ix2 k b))))
    (fun i => (V m c main_arg2 : S131072x66.Idx → EReal) (ix2 b i))

/-- The policy array after the launch. -/
def polV (c : Dev nD) : S131072x60.Idx → EReal := fun i =>
  Net.policy (fun j o => (V m c main_v14 : S256x64.Idx → EReal) (ix2 j (⟨o.val, by omega⟩ : Fin 64)))
    (fun o => (V m c main_v20 : S64.Idx → EReal) (ix1 (⟨o.val, by omega⟩ : Fin 64))) (vhid m c (i 0)) (i 1)

/-- The value array after the launch. -/
def valV (c : Dev nD) : S131072.Idx → EReal := fun i =>
  Net.value (fun j => (V m c main_v14 : S256x64.Idx → EReal) (ix2 j (⟨60, by omega⟩ : Fin 64)))
    ((V m c main_v20 : S64.Idx → EReal) (ix1 (⟨60, by omega⟩ : Fin 64))) (vhid m c (i 0))

/-- The windows' index maps over the 32 grid points: a batch-blocked window sits at block t along the batch axis
    and at block 0 along the other axis. -/
private theorem idx_batch : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = t.val ∧ win0_2.index t (1 : Fin 2) = 0
    ∧ win0_11.index t (0 : Fin 2) = t.val ∧ win0_11.index t (1 : Fin 2) = 0
    ∧ win0_12.index t (0 : Fin 1) = t.val :=
  (by decide +kernel : ∀ t : Fin grid0.N, _)

/-- Every weight window sits at block 0 on every axis, at every point. -/
private theorem idx_weights : ∀ t : Fin cfg0.N,
    win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-- The grid has 32 points. -/
private theorem point_lt (t : Fin cfg0.N) : t.val < 32 := t.isLt.trans_eq N_0

/-! ## Each input block, read where the point's rows are -/

/-- The first index block at point t, at (k, p): the transposed first index array at (k, 4096 t + p). -/
private theorem blk0_apply (c : Dev nD) (t : Fin cfg0.N) (k : Fin 3) (p : Fin 4096) (b : Fin 131072) (hb : b.val = 4096 * t.val + p.val) :
    (iblk m c 0 t : Vec Ideal S3x4096 .i32) (ix2 k p) = (V m c main_v0 : S3x131072.Idx → BitVec 32) (ix2 k b) := by
  obtain ⟨e0, e1, -⟩ := idx_batch t
  show V m c main_v0 (((cfg0.win 0).blk t).view.emb (ix2 k p)) = V m c main_v0 (ix2 k b)
  congr 1
  funext a
  apply Fin.ext
  match a with
  | ⟨0, _⟩ => show win0_0.index t (0 : Fin 2) * 3 + 1 * k.val = k.val; rw [e0]; omega
  | ⟨1, _⟩ => show win0_0.index t (1 : Fin 2) * 4096 + 1 * p.val = b.val; rw [e1, hb]; omega

/-- The second index block at point t, at (k, p): the transposed second index array at (k, 4096 t + p). -/
private theorem blk1_apply (c : Dev nD) (t : Fin cfg0.N) (k : Fin 3) (p : Fin 4096) (b : Fin 131072) (hb : b.val = 4096 * t.val + p.val) :
    (iblk m c 1 t : Vec Ideal S3x4096 .i32) (ix2 k p) = (V m c main_v1 : S3x131072.Idx → BitVec 32) (ix2 k b) := by
  obtain ⟨-, -, e0, e1, -⟩ := idx_batch t
  show V m c main_v1 (((cfg0.win 1).blk t).view.emb (ix2 k p)) = V m c main_v1 (ix2 k b)
  congr 1
  funext a
  apply Fin.ext
  match a with
  | ⟨0, _⟩ => show win0_1.index t (0 : Fin 2) * 3 + 1 * k.val = k.val; rw [e0]; omega
  | ⟨1, _⟩ => show win0_1.index t (1 : Fin 2) * 4096 + 1 * p.val = b.val; rw [e1, hb]; omega

/-- The dense block at point t, at (p, i): the dense array at (4096 t + p, i). -/
private theorem blk2_apply (c : Dev nD) (t : Fin cfg0.N) (p : Fin 4096) (i : Fin 66) (b : Fin 131072) (hb : b.val = 4096 * t.val + p.val) :
    (iblk m c 2 t : Vec Ideal S4096x66 .f32) (ix2 p i) = (V m c main_arg2 : S131072x66.Idx → EReal) (ix2 b i) := by
  obtain ⟨-, -, -, -, e0, e1, -⟩ := idx_batch t
  show V m c main_arg2 (((cfg0.win 2).blk t).view.emb (ix2 p i)) = V m c main_arg2 (ix2 b i)
  congr 1
  funext a
  apply Fin.ext
  match a with
  | ⟨0, _⟩ => show win0_2.index t (0 : Fin 2) * 4096 + 1 * p.val = b.val; rw [e0, hb]; omega
  | ⟨1, _⟩ => show win0_2.index t (1 : Fin 2) * 66 + 1 * i.val = i.val; rw [e1]; omega

/-! ## Each weight block is its whole array -/

private theorem blk3_eq (c : Dev nD) (t : Fin cfg0.N) :
    (iblk m c 3 t : Vec Ideal S120x256 .bf16) = (V m c main_v21 : S120x256.Idx → EReal) := by
  obtain ⟨e0, e1, -⟩ := idx_weights t
  funext y
  show V m c main_v21 (((cfg0.win 3).blk t).view.emb y) = V m c main_v21 y
  congr 1
  funext a
  apply Fin.ext
  match a with
  | ⟨0, _⟩ => show win0_3.index t (0 : Fin 2) * 120 + 1 * (y 0).val = (y 0).val; rw [e0]; omega
  | ⟨1, _⟩ => show win0_3.index t (1 : Fin 2) * 256 + 1 * (y 1).val = (y 1).val; rw [e1]; omega

private theorem blk4_eq (c : Dev nD) (t : Fin cfg0.N) :
    (iblk m c 4 t : Vec Ideal S256 .f32) = (V m c main_arg4 : S256.Idx → EReal) := by
  obtain ⟨-, -, e0, -⟩ := idx_weights t
  funext y
  show V m c main_arg4 (((cfg0.win 4).blk t).view.emb y) = V m c main_arg4 y
  congr 1
  funext a
  apply Fin.ext
  match a with
  | ⟨0, _⟩ => show win0_4.index t (0 : Fin 1) * 256 + 1 * (y 0).val = (y 0).val; rw [e0]; omega

private theorem blk5_eq (c : Dev nD) (t : Fin cfg0.N) :
    (iblk m c 5 t : Vec Ideal S256x256 .bf16) = (V m c main_v3 : S256x256.Idx → EReal) := by
  obtain ⟨-, -, -, e0, e1, -⟩ := idx_weights t
  funext y
  show V m c main_v3 (((cfg0.win 5).blk t).view.emb y) = V m c main_v3 y
  congr 1
  funext a
  apply Fin.ext
  match a with
  | ⟨0, _⟩ => show win0_5.index t (0 : Fin 2) * 256 + 1 * (y 0).val = (y 0).val; rw [e0]; omega
  | ⟨1, _⟩ => show win0_5.index t (1 : Fin 2) * 256 + 1 * (y 1).val = (y 1).val; rw [e1]; omega

private theorem blk6_eq (c : Dev nD) (t : Fin cfg0.N) :
    (iblk m c 6 t : Vec Ideal S256x256 .bf16) = (V m c main_v5 : S256x256.Idx → EReal) := by
  obtain ⟨-, -, -, -, -, e0, e1, -⟩ := idx_weights t
  funext y
  show V m c main_v5 (((cfg0.win 6).blk t).view.emb y) = V m c main_v5 y
  congr 1
  funext a
  apply Fin.ext
  match a with
  | ⟨0, _⟩ => show win0_6.index t (0 : Fin 2) * 256 + 1 * (y 0).val = (y 0).val; rw [e0]; omega
  | ⟨1, _⟩ => show win0_6.index t (1 : Fin 2) * 256 + 1 * (y 1).val = (y 1).val; rw [e1]; omega

private theorem blk7_eq (c : Dev nD) (t : Fin cfg0.N) :
    (iblk m c 7 t : Vec Ideal S66x256 .bf16) = (V m c main_v7 : S66x256.Idx → EReal) := by
  obtain ⟨-, -, -, -, -, -, -, e0, e1, -⟩ := idx_weights t
  funext y
  show V m c main_v7 (((cfg0.win 7).blk t).view.emb y) = V m c main_v7 y
  congr 1
  funext a
  apply Fin.ext
  match a with
  | ⟨0, _⟩ => show win0_7.index t (0 : Fin 2) * 66 + 1 * (y 0).val = (y 0).val; rw [e0]; omega
  | ⟨1, _⟩ => show win0_7.index t (1 : Fin 2) * 256 + 1 * (y 1).val = (y 1).val; rw [e1]; omega

private theorem blk8_eq (c : Dev nD) (t : Fin cfg0.N) :
    (iblk m c 8 t : Vec Ideal S256 .f32) = (V m c main_arg6 : S256.Idx → EReal) := by
  obtain ⟨-, -, -, -, -, -, -, -, -, e0, -⟩ := idx_weights t
  funext y
  show V m c main_arg6 (((cfg0.win 8).blk t).view.emb y) = V m c main_arg6 y
  congr 1
  funext a
  apply Fin.ext
  match a with
  | ⟨0, _⟩ => show win0_8.index t (0 : Fin 1) * 256 + 1 * (y 0).val = (y 0).val; rw [e0]; omega

private theorem blk9_eq (c : Dev nD) (t : Fin cfg0.N) :
    (iblk m c 9 t : Vec Ideal S256x64 .bf16) = (V m c main_v14 : S256x64.Idx → EReal) := by
  obtain ⟨-, -, -, -, -, -, -, -, -, -, e0, e1, -⟩ := idx_weights t
  funext y
  show V m c main_v14 (((cfg0.win 9).blk t).view.emb y) = V m c main_v14 y
  congr 1
  funext a
  apply Fin.ext
  match a with
  | ⟨0, _⟩ => show win0_9.index t (0 : Fin 2) * 256 + 1 * (y 0).val = (y 0).val; rw [e0]; omega
  | ⟨1, _⟩ => show win0_9.index t (1 : Fin 2) * 64 + 1 * (y 1).val = (y 1).val; rw [e1]; omega

private theorem blk10_eq (c : Dev nD) (t : Fin cfg0.N) :
    (iblk m c 10 t : Vec Ideal S64 .f32) = (V m c main_v20 : S64.Idx → EReal) := by
  obtain ⟨-, -, -, -, -, -, -, -, -, -, -, -, e0⟩ := idx_weights t
  funext y
  show V m c main_v20 (((cfg0.win 10).blk t).view.emb y) = V m c main_v20 y
  congr 1
  funext a
  apply Fin.ext
  match a with
  | ⟨0, _⟩ => show win0_10.index t (0 : Fin 1) * 64 + 1 * (y 0).val = (y 0).val; rw [e0]; omega

/-! ## One row of a block is one row of the arrays -/

/-- The first layer for block row p, when the block's row p is row b of the arrays: the first layer on row b. -/
private theorem khid_row (x0 x1 : Vec Ideal S3x4096 .i32) (x2 : Vec Ideal S4096x66 .f32) (x3 : Vec Ideal S120x256 .bf16)
    (x4 : Vec Ideal S256 .f32) (x5 x6 : Vec Ideal S256x256 .bf16) (x7 : Vec Ideal S66x256 .bf16) (x8 : Vec Ideal S256 .f32)
    (y0 y1 : S3x131072.Idx → BitVec 32) (y2 : S131072x66.Idx → EReal) (p : Fin 4096) (b : Fin 131072)
    (h0 : ∀ k : Fin 3, x0 (ix2 k p) = y0 (ix2 k b)) (h1 : ∀ k : Fin 3, x1 (ix2 k p) = y1 (ix2 k b))
    (h2 : ∀ i : Fin 66, x2 (ix2 p i) = y2 (ix2 b i)) :
    Row.khid x0 x1 x2 x3 x4 x5 x6 x7 x8 p
      = Net.hidden3 (fun i j => x5 (ix2 i j)) (fun i j => x6 (ix2 i j)) (fun i j => x7 (ix2 i j)) (fun j => x8 (ix1 j))
          (Net.acc (fun r f => x3 (ix2 r f)) (fun f => x4 (ix1 f)) (fun k => Net.row (y0 (ix2 k b))))
          (Net.acc (fun r f => x3 (ix2 r f)) (fun f => x4 (ix1 f)) (fun k => Net.row (y1 (ix2 k b))))
          (fun i => y2 (ix2 b i)) := by
  have e0 : (fun k : Fin 3 => Net.row (x0 (ix2 k p))) = fun k => Net.row (y0 (ix2 k b)) :=
    funext fun k => congrArg Net.row (h0 k)
  have e1 : (fun k : Fin 3 => Net.row (x1 (ix2 k p))) = fun k => Net.row (y1 (ix2 k b)) :=
    funext fun k => congrArg Net.row (h1 k)
  have e2 : (fun i : Fin 66 => x2 (ix2 p i)) = fun i => y2 (ix2 b i) := funext h2
  unfold Row.khid
  rw [e0, e1, e2]

/-- The policy block at (p, q), when the block's row p is row b of the batch arrays and the weight blocks are the
    weight arrays: the policy head on row b's first layer. -/
private theorem pol_row (x0 x1 : Vec Ideal S3x4096 .i32) (x2 : Vec Ideal S4096x66 .f32) (x3 : Vec Ideal S120x256 .bf16)
    (x4 : Vec Ideal S256 .f32) (x5 x6 : Vec Ideal S256x256 .bf16) (x7 : Vec Ideal S66x256 .bf16) (x8 : Vec Ideal S256 .f32)
    (x9 : Vec Ideal S256x64 .bf16) (x10 : Vec Ideal S64 .f32)
    (y0 y1 : S3x131072.Idx → BitVec 32) (y2 : S131072x66.Idx → EReal) (y3 : S120x256.Idx → EReal) (y4 : S256.Idx → EReal)
    (y5 y6 : S256x256.Idx → EReal) (y7 : S66x256.Idx → EReal) (y8 : S256.Idx → EReal) (y9 : S256x64.Idx → EReal)
    (y10 : S64.Idx → EReal) (p : Fin 4096) (q : Fin 60) (b : Fin 131072)
    (h0 : ∀ k : Fin 3, x0 (ix2 k p) = y0 (ix2 k b)) (h1 : ∀ k : Fin 3, x1 (ix2 k p) = y1 (ix2 k b))
    (h2 : ∀ i : Fin 66, x2 (ix2 p i) = y2 (ix2 b i))
    (h3 : x3 = y3) (h4 : x4 = y4) (h5 : x5 = y5) (h6 : x6 = y6) (h7 : x7 = y7) (h8 : x8 = y8) (h9 : x9 = y9) (h10 : x10 = y10) :
    out0_11 (F := Ideal) x0 x1 x2 x3 x4 x5 x6 x7 x8 x9 x10 (ix2 p q)
      = Net.policy (fun j o => y9 (ix2 j (⟨o.val, by omega⟩ : Fin 64))) (fun o => y10 (ix1 (⟨o.val, by omega⟩ : Fin 64)))
          (Net.hidden3 (fun i j => y5 (ix2 i j)) (fun i j => y6 (ix2 i j)) (fun i j => y7 (ix2 i j)) (fun j => y8 (ix1 j))
            (Net.acc (fun r f => y3 (ix2 r f)) (fun f => y4 (ix1 f)) (fun k => Net.row (y0 (ix2 k b))))
            (Net.acc (fun r f => y3 (ix2 r f)) (fun f => y4 (ix1 f)) (fun k => Net.row (y1 (ix2 k b))))
            (fun i => y2 (ix2 b i))) q := by
  subst h3 h4 h5 h6 h7 h8 h9 h10
  rw [Row.out11_apply, khid_row x0 x1 x2 x3 x4 x5 x6 x7 x8 y0 y1 y2 p b h0 h1 h2]

/-! ## The policy array -/

/-- What point t writes back to the policy array is the block of the policy array's closed form at t. -/
private theorem flushed_pol (c : Dev nD) (t : Fin cfg0.N) :
    (dats m 0 c).flushed 11 t = ((cfg0.win 11).blk t).view.read (Elt Ideal) (polV m c) := by
  rw [Value.flushed11]
  funext y
  obtain ⟨p, q, rfl⟩ : ∃ (p : Fin 4096) (q : Fin 60), y = ix2 p q := ⟨y 0, y 1, eq_ix2 y⟩
  have ht := point_lt t
  obtain ⟨b, hb⟩ : ∃ b : Fin 131072, b.val = 4096 * t.val + p.val := ⟨⟨4096 * t.val + p.val, by omega⟩, rfl⟩
  obtain ⟨-, -, -, -, -, -, e0, e1, -⟩ := idx_batch t
  have hemb : ((cfg0.win 11).blk t).view.emb (ix2 p q) = (ix2 b q : S131072x60.Idx) := by
    funext a
    apply Fin.ext
    match a with
    | ⟨0, _⟩ => show win0_11.index t (0 : Fin 2) * 4096 + 1 * p.val = b.val; rw [e0, hb]; omega
    | ⟨1, _⟩ => show win0_11.index t (1 : Fin 2) * 60 + 1 * q.val = q.val; rw [e1]; omega
  show out0_11 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 p q)
    = polV m c (((cfg0.win 11).blk t).view.emb (ix2 p q))
  rw [hemb]
  exact pol_row (iblk m c 0 t) (iblk m c 1 t) (iblk m c 2 t) (iblk m c 3 t) (iblk m c 4 t) (iblk m c 5 t)
    (iblk m c 6 t) (iblk m c 7 t) (iblk m c 8 t) (iblk m c 9 t) (iblk m c 10 t)
    (V m c main_v0) (V m c main_v1) (V m c main_arg2) (V m c main_v21) (V m c main_arg4) (V m c main_v3) (V m c main_v5)
    (V m c main_v7) (V m c main_arg6) (V m c main_v14) (V m c main_v20) p q b
    (fun k => blk0_apply m c t k p b hb) (fun k => blk1_apply m c t k p b hb) (fun i => blk2_apply m c t p i b hb)
    (blk3_eq m c t) (blk4_eq m c t) (blk5_eq m c t) (blk6_eq m c t) (blk7_eq m c t) (blk8_eq m c t) (blk9_eq m c t)
    (blk10_eq m c t)

/-- An index of the policy array is in point t's block iff each coordinate is in the block's range on its axis. -/
private theorem mem_blk_pol (t : Fin cfg0.N) (i : S131072x60.Idx) :
    i ∈ ((cfg0.win 11).blk t).view.set
      ↔ ∀ a : Fin 2, win0_11.index t a * S4096x60.size a ≤ (i a).val
          ∧ (i a).val < win0_11.index t a * S4096x60.size a + S4096x60.size a := by
  show i ∈ ((View.whole main_v22_0).slice (win0_11.rect t)).set ↔ _
  rw [View.set_slice_whole, Rect.mem_set_unit]
  exact Iff.rfl

/-- Row b of the policy array is in the block of point b / 4096. -/
private theorem cover_pol (i : S131072x60.Idx) :
    ∃ t : Fin cfg0.N, (cfg0.win 11).flush t = true ∧ i ∈ ((cfg0.win 11).blk t).view.set := by
  have hi0 : (i 0).val < 131072 := (i 0).isLt
  have hi1 : (i 1).val < 60 := (i 1).isLt
  obtain ⟨t, ht⟩ : ∃ t : Fin cfg0.N, t.val = (i 0).val / 4096 :=
    ⟨⟨(i 0).val / 4096, by rw [show cfg0.N = 32 from N_0]; omega⟩, rfl⟩
  obtain ⟨-, -, -, -, -, -, e0, e1, -⟩ := idx_batch t
  refine ⟨t, flush0_11 t, ?_⟩
  rw [mem_blk_pol]
  intro a
  match a with
  | ⟨0, _⟩ =>
    show win0_11.index t (0 : Fin 2) * 4096 ≤ (i 0).val ∧ (i 0).val < win0_11.index t (0 : Fin 2) * 4096 + 4096
    rw [e0, ht]; omega
  | ⟨1, _⟩ =>
    show win0_11.index t (1 : Fin 2) * 60 ≤ (i 1).val ∧ (i 1).val < win0_11.index t (1 : Fin 2) * 60 + 60
    rw [e1]; omega

theorem final11 (c : Dev nD) : (dats m 0 c).arrAt 11 cfg0.N = polV m c :=
  (dats m 0 c).arrAt_eq_of_cover 11 (polV m c) (fun t _ => flushed_pol m c t) cover_pol

/-! ## The value array -/

/-- The value block at p, when the block's row p is row b of the batch arrays and the weight blocks are the weight
    arrays: the value head on row b's first layer. -/
private theorem val_row (x0 x1 : Vec Ideal S3x4096 .i32) (x2 : Vec Ideal S4096x66 .f32) (x3 : Vec Ideal S120x256 .bf16)
    (x4 : Vec Ideal S256 .f32) (x5 x6 : Vec Ideal S256x256 .bf16) (x7 : Vec Ideal S66x256 .bf16) (x8 : Vec Ideal S256 .f32)
    (x9 : Vec Ideal S256x64 .bf16) (x10 : Vec Ideal S64 .f32)
    (y0 y1 : S3x131072.Idx → BitVec 32) (y2 : S131072x66.Idx → EReal) (y3 : S120x256.Idx → EReal) (y4 : S256.Idx → EReal)
    (y5 y6 : S256x256.Idx → EReal) (y7 : S66x256.Idx → EReal) (y8 : S256.Idx → EReal) (y9 : S256x64.Idx → EReal)
    (y10 : S64.Idx → EReal) (p : Fin 4096) (b : Fin 131072)
    (h0 : ∀ k : Fin 3, x0 (ix2 k p) = y0 (ix2 k b)) (h1 : ∀ k : Fin 3, x1 (ix2 k p) = y1 (ix2 k b))
    (h2 : ∀ i : Fin 66, x2 (ix2 p i) = y2 (ix2 b i))
    (h3 : x3 = y3) (h4 : x4 = y4) (h5 : x5 = y5) (h6 : x6 = y6) (h7 : x7 = y7) (h8 : x8 = y8) (h9 : x9 = y9) (h10 : x10 = y10) :
    out0_12 (F := Ideal) x0 x1 x2 x3 x4 x5 x6 x7 x8 x9 x10 (ix1 p)
      = Net.value (fun j => y9 (ix2 j (⟨60, by omega⟩ : Fin 64))) (y10 (ix1 (⟨60, by omega⟩ : Fin 64)))
          (Net.hidden3 (fun i j => y5 (ix2 i j)) (fun i j => y6 (ix2 i j)) (fun i j => y7 (ix2 i j)) (fun j => y8 (ix1 j))
            (Net.acc (fun r f => y3 (ix2 r f)) (fun f => y4 (ix1 f)) (fun k => Net.row (y0 (ix2 k b))))
            (Net.acc (fun r f => y3 (ix2 r f)) (fun f => y4 (ix1 f)) (fun k => Net.row (y1 (ix2 k b))))
            (fun i => y2 (ix2 b i))) := by
  subst h3 h4 h5 h6 h7 h8 h9 h10
  rw [Row.out12_apply, khid_row x0 x1 x2 x3 x4 x5 x6 x7 x8 y0 y1 y2 p b h0 h1 h2]

/-- What point t writes back to the value array is the block of the value array's closed form at t. -/
private theorem flushed_val (c : Dev nD) (t : Fin cfg0.N) :
    (dats m 0 c).flushed 12 t = ((cfg0.win 12).blk t).view.read (Elt Ideal) (valV m c) := by
  rw [Value.flushed12]
  funext y
  obtain ⟨p, rfl⟩ : ∃ p : Fin 4096, y = ix1 p := ⟨y 0, eq_ix1 y⟩
  have ht := point_lt t
  obtain ⟨b, hb⟩ : ∃ b : Fin 131072, b.val = 4096 * t.val + p.val := ⟨⟨4096 * t.val + p.val, by omega⟩, rfl⟩
  obtain ⟨-, -, -, -, -, -, -, -, e0⟩ := idx_batch t
  have hemb : ((cfg0.win 12).blk t).view.emb (ix1 p) = (ix1 b : S131072.Idx) := by
    funext a
    apply Fin.ext
    match a with
    | ⟨0, _⟩ => show win0_12.index t (0 : Fin 1) * 4096 + 1 * p.val = b.val; rw [e0, hb]; omega
  show out0_12 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix1 p)
    = valV m c (((cfg0.win 12).blk t).view.emb (ix1 p))
  rw [hemb]
  exact val_row (iblk m c 0 t) (iblk m c 1 t) (iblk m c 2 t) (iblk m c 3 t) (iblk m c 4 t) (iblk m c 5 t)
    (iblk m c 6 t) (iblk m c 7 t) (iblk m c 8 t) (iblk m c 9 t) (iblk m c 10 t)
    (V m c main_v0) (V m c main_v1) (V m c main_arg2) (V m c main_v21) (V m c main_arg4) (V m c main_v3) (V m c main_v5)
    (V m c main_v7) (V m c main_arg6) (V m c main_v14) (V m c main_v20) p b
    (fun k => blk0_apply m c t k p b hb) (fun k => blk1_apply m c t k p b hb) (fun i => blk2_apply m c t p i b hb)
    (blk3_eq m c t) (blk4_eq m c t) (blk5_eq m c t) (blk6_eq m c t) (blk7_eq m c t) (blk8_eq m c t) (blk9_eq m c t)
    (blk10_eq m c t)

/-- An index of the value array is in point t's block iff it is in the block's range. -/
private theorem mem_blk_val (t : Fin cfg0.N) (i : S131072.Idx) :
    i ∈ ((cfg0.win 12).blk t).view.set
      ↔ ∀ a : Fin 1, win0_12.index t a * S4096.size a ≤ (i a).val
          ∧ (i a).val < win0_12.index t a * S4096.size a + S4096.size a := by
  show i ∈ ((View.whole main_v22_1).slice (win0_12.rect t)).set ↔ _
  rw [View.set_slice_whole, Rect.mem_set_unit]
  exact Iff.rfl

/-- Entry b of the value array is in the block of point b / 4096. -/
private theorem cover_val (i : S131072.Idx) :
    ∃ t : Fin cfg0.N, (cfg0.win 12).flush t = true ∧ i ∈ ((cfg0.win 12).blk t).view.set := by
  have hi0 : (i 0).val < 131072 := (i 0).isLt
  obtain ⟨t, ht⟩ : ∃ t : Fin cfg0.N, t.val = (i 0).val / 4096 :=
    ⟨⟨(i 0).val / 4096, by rw [show cfg0.N = 32 from N_0]; omega⟩, rfl⟩
  obtain ⟨-, -, -, -, -, -, -, -, e0⟩ := idx_batch t
  refine ⟨t, flush0_12 t, ?_⟩
  rw [mem_blk_val]
  intro a
  match a with
  | ⟨0, _⟩ =>
    show win0_12.index t (0 : Fin 1) * 4096 ≤ (i 0).val ∧ (i 0).val < win0_12.index t (0 : Fin 1) * 4096 + 4096
    rw [e0, ht]; omega

theorem final12 (c : Dev nD) : (dats m 0 c).arrAt 12 cfg0.N = valV m c :=
  (dats m 0 c).arrAt_eq_of_cover 12 (valV m c) (fun t _ => flushed_val m c t) cover_val

end Cert.KernelIdeal.BlockValue

end
-- ==== Proof.LibScatterAtPosition.lean ====
/-
  A scatter read at ONE position of its operand.

  The host's scatter is a left fold, over the update indices in order, of point updates: update `j` lands on the
  operand position `d.resultIdx? j idx` (nowhere, when that is `none`) and replaces the element there by the body
  `f` applied to it and the update's element. Read at one position `i` the fold needs only what happens AT `i`:
    * `scatter_apply_of_miss`: if no update lands on `i`, the result there is the operand's element;
    * `scatter_apply_of_hit`:  if exactly one update `j` lands on `i`, the result there is `f (x i) (upd j)`.
  Neither mentions the extents, the dimension numbers or the contents of the index array beyond where the updates
  land, so neither makes Lean evaluate a fold or an index array of literal size. They rest on two lemmas about any
  left fold of steps that each touch at most one position (`foldl_step_miss`, `foldl_step_hit`).
  Typical use: `x.at[rows, cols].set(v)` at pairwise distinct in-bounds positions (a diagonal, a permutation) —
  show where update `j` lands, that distinct updates land on distinct positions, and split on whether `i` is hit.
-/
import Idealize.ShloMosaic.PureOps.ShapeOps

namespace Cert.Lib

open Idealize.ShloMosaic

/-! ## A scatter whose updates land on pairwise distinct positions, read at a position

The host's scatter is a left fold of point updates over the update indices. Read at one position of the operand it
needs only what happens AT that position: if no update lands there the operand's element survives, and if exactly one
does the result is the body applied to the operand's element and that update. Neither statement mentions the extents,
the dimension numbers or the index array beyond where the updates land. -/

section ScatterAtAPosition
/-- A left fold of steps that each leave position `i` alone leaves it alone. -/
theorem foldl_step_miss {ι κ α : Type} (pos : κ → Option ι) (step : (ι → α) → κ → ι → α)
    (hmiss : ∀ r n i, pos n ≠ some i → step r n i = r i) :
    ∀ (l : List κ) (x : ι → α) (i : ι), (∀ n ∈ l, pos n ≠ some i) → l.foldl step x i = x i
  | [], _, _, _ => rfl
  | a :: l, x, i, h => by
    rw [List.foldl_cons, foldl_step_miss pos step hmiss l (step x a) i (fun n hn => h n (List.mem_cons_of_mem _ hn)),
      hmiss x a i (h a List.mem_cons_self)]

/-- A left fold of point updates, over a list without repetition in which exactly `n` lands on position `i`,
    holds at `i` that one update applied to the starting value. -/
theorem foldl_step_hit {ι κ α : Type} (f : α → α → α) (pos : κ → Option ι) (v : κ → α) (step : (ι → α) → κ → ι → α)
    (hhit : ∀ r n i, pos n = some i → step r n i = f (r i) (v n))
    (hmiss : ∀ r n i, pos n ≠ some i → step r n i = r i) :
    ∀ (l : List κ) (x : ι → α) (i : ι) (n : κ), l.Nodup → n ∈ l → pos n = some i →
      (∀ n' ∈ l, pos n' = some i → n' = n) → l.foldl step x i = f (x i) (v n)
  | [], _, _, _, _, hn, _, _ => absurd hn List.not_mem_nil
  | a :: l, x, i, n, hnd, hn, hp, hu => by
    rw [List.foldl_cons]
    have hnd' := List.nodup_cons.1 hnd
    by_cases han : a = n
    · subst han
      rw [foldl_step_miss pos step hmiss l (step x a) i (fun n' hn' e => hnd'.1 (hu n' (List.mem_cons_of_mem _ hn') e ▸ hn')),
        hhit x a i hp]
    · have hn' : n ∈ l := (List.mem_cons.1 hn).resolve_left (fun e => han e.symm)
      rw [foldl_step_hit f pos v step hhit hmiss l (step x a) i n hnd'.2 hn' hp (fun n' h' => hu n' (List.mem_cons_of_mem _ h')),
        hmiss x a i (fun e => han (hu a List.mem_cons_self e))]

variable {α : Type} {s si u : Shape} {w : Nat}

/-- A scatter read at a position no update lands on is the operand there. -/
theorem scatter_apply_of_miss (d : ScatterDims s si u) (f : α → α → α) (x : s.Idx → α) (idx : IVec si w) (upd : u.Idx → α)
    (i : s.Idx) (h : ∀ j, d.resultIdx? j idx ≠ some i) : Host.scatter d f x idx upd i = x i := by
  unfold Host.scatter
  refine foldl_step_miss (fun n => d.resultIdx? (u.rowMajor.symm n) idx) _ ?_ _ x i (fun n _ => h _)
  intro r n i' hne
  generalize d.resultIdx? (u.rowMajor.symm n) idx = o at hne
  cases o with
  | none => rfl
  | some i0 => exact if_neg (fun e => hne (congrArg some e.symm))

/-- A scatter read at a position exactly one update lands on is the body applied to the operand there and that update. -/
theorem scatter_apply_of_hit (d : ScatterDims s si u) (f : α → α → α) (x : s.Idx → α) (idx : IVec si w) (upd : u.Idx → α)
    (i : s.Idx) (j : u.Idx) (hj : d.resultIdx? j idx = some i) (hu : ∀ j', d.resultIdx? j' idx = some i → j' = j) :
    Host.scatter d f x idx upd i = f (x i) (upd j) := by
  unfold Host.scatter
  refine (foldl_step_hit f (fun n => d.resultIdx? (u.rowMajor.symm n) idx) (fun n => upd (u.rowMajor.symm n))
    _ ?_ ?_ (List.finRange u.numel) x i (u.rowMajor j) (List.nodup_finRange _) (List.mem_finRange _)
      ?_ (fun n' _ e => ?_)).trans ?_
  · intro r n i' e
    simp only [e]
    exact if_pos trivial
  · intro r n i' hne
    generalize d.resultIdx? (u.rowMajor.symm n) idx = o at hne
    cases o with
    | none => rfl
    | some i0 => exact if_neg (fun e => hne (congrArg some e.symm))
  · simp only [Equiv.symm_apply_apply]; exact hj
  · have := hu _ e
    rw [← this, Equiv.apply_symm_apply]
  · simp only [Equiv.symm_apply_apply]

end ScatterAtAPosition

end Cert.Lib
-- ==== Proof.HostGlue.lean ====
/-
  The arrays the pallas_call finds, in terms of the program's arguments. Before the launch the program transposes
  the two index arrays, cuts the first layer's matrix into its three stretches of rows, and builds the fused head:
  a 256 x 64 matrix whose columns 0..59 are the policy matrix and column 60 the value vector, and a 64-vector whose
  entries 0..59 are the policy bias and entry 60 the value bias. Changes of float format are the identity here.
-/
import proofs.«404441_j58291296141587_3_alg».proof.Proof.Gen.KernelIdeal.Frame
import proofs.«404441_j58291296141587_3_alg».proof.Proof.LibScatterAtPosition
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Glue

open Cert.KernelIdeal Cert.KernelIdeal.Gen Idealize.ShloMosaic Idealize.ShloMosaic.TcCoe Idealize.SL.Sem Idealize.ShloMosaic.ValueIdx

/-- An update lands on a position exactly when, on every axis, the window's start plus the update's coordinate inside
    the window is that position's coordinate. -/
private theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have hi := Option.some.inj h
      have hb' := hb a
      rw [← hi]
      show _ = (((d.start j idx a + (d.window j a : Int)).toNat : Nat) : Int)
      omega
    · cases h
  · intro h
    have hb : ∀ a, 0 ≤ d.start j idx a + (d.window j a : Int) ∧ d.start j idx a + (d.window j a : Int) < s.size a :=
      fun a => by have := h a; have := (i a).isLt; omega
    rw [dif_pos hb]
    refine congrArg some (funext fun a => Fin.ext ?_)
    show (d.start j idx a + (d.window j a : Int)).toNat = (i a).val
    have := h a
    omega

/-! ## Where each of the four scatters' updates land

Each scatter has one scatter index, a constant (0 or 60), naming the start of the window on one axis; the window is the
whole update on the axes the update keeps. So update (r, q) of the policy matrix lands on (r, q); update r of the
value vector on (r, 60); update q of the policy bias on q; the value bias on 60. -/

/-- The policy matrix into the 256 x 64 head: update (r, q) lands on (r, q). -/
private theorem lands_policy_matrix (j' : S256x60.Idx) (i : S256x64.Idx) :
    scatter_S256x64_S1_S256x60_01_n_1_0.resultIdx? j' (fun _ => (0#32 : BitVec 32)) = some i
      ↔ (i ⟨0, by decide⟩).val = (j' ⟨0, by decide⟩).val ∧ (i ⟨1, by decide⟩).val = (j' ⟨1, by decide⟩).val := by
  rw [resultIdx?_eq_some_iff]
  constructor
  · intro h
    have h0 : (0 : Int) + ((j' ⟨0, by decide⟩).val : Int) = ((i ⟨0, by decide⟩).val : Int) := h ⟨0, by decide⟩
    have h1 : (0 : Int) + ((j' ⟨1, by decide⟩).val : Int) = ((i ⟨1, by decide⟩).val : Int) := h ⟨1, by decide⟩
    omega
  · intro h a
    have h0 := h.1
    have h1 := h.2
    match a with
    | ⟨0, _⟩ => exact (show (0 : Int) + ((j' ⟨0, by decide⟩).val : Int) = ((i ⟨0, by decide⟩).val : Int) by omega)
    | ⟨1, _⟩ => exact (show (0 : Int) + ((j' ⟨1, by decide⟩).val : Int) = ((i ⟨1, by decide⟩).val : Int) by omega)

/-- The value vector into column 60 of the head: update r lands on (r, 60). -/
private theorem lands_value_vector (j' : S256.Idx) (i : S256x64.Idx) :
    scatter_S256x64_S1_S256_0_1_1_0.resultIdx? j' (fun _ => (60#32 : BitVec 32)) = some i
      ↔ (i ⟨0, by decide⟩).val = (j' ⟨0, by decide⟩).val ∧ (i ⟨1, by decide⟩).val = 60 := by
  rw [resultIdx?_eq_some_iff]
  constructor
  · intro h
    have h0 : (0 : Int) + ((j' ⟨0, by decide⟩).val : Int) = ((i ⟨0, by decide⟩).val : Int) := h ⟨0, by decide⟩
    have h1 : (60 : Int) + ((0 : Nat) : Int) = ((i ⟨1, by decide⟩).val : Int) := h ⟨1, by decide⟩
    omega
  · intro h a
    have h0 := h.1
    have h1 := h.2
    match a with
    | ⟨0, _⟩ => exact (show (0 : Int) + ((j' ⟨0, by decide⟩).val : Int) = ((i ⟨0, by decide⟩).val : Int) by omega)
    | ⟨1, _⟩ => exact (show (60 : Int) + ((0 : Nat) : Int) = ((i ⟨1, by decide⟩).val : Int) by omega)

/-- The policy bias into the 64-vector: update q lands on q. -/
private theorem lands_policy_bias (j' : S60.Idx) (i : S64.Idx) :
    scatter_S64_S1_S60_0_n_0_0.resultIdx? j' (fun _ => (0#32 : BitVec 32)) = some i
      ↔ (i ⟨0, by decide⟩).val = (j' ⟨0, by decide⟩).val := by
  rw [resultIdx?_eq_some_iff]
  constructor
  · intro h
    have h0 : (0 : Int) + ((j' ⟨0, by decide⟩).val : Int) = ((i ⟨0, by decide⟩).val : Int) := h ⟨0, by decide⟩
    omega
  · intro h a
    match a with
    | ⟨0, _⟩ => exact (show (0 : Int) + ((j' ⟨0, by decide⟩).val : Int) = ((i ⟨0, by decide⟩).val : Int) by omega)

/-- The value bias into the 64-vector: the one update lands on 60. -/
private theorem lands_value_bias (j' : S_.Idx) (i : S64.Idx) :
    scatter_S64_S1_S__n_0_0_0.resultIdx? j' (fun _ => (60#32 : BitVec 32)) = some i
      ↔ (i ⟨0, by decide⟩).val = 60 := by
  rw [resultIdx?_eq_some_iff]
  constructor
  · intro h
    have h0 : (60 : Int) + ((0 : Nat) : Int) = ((i ⟨0, by decide⟩).val : Int) := h ⟨0, by decide⟩
    omega
  · intro h a
    match a with
    | ⟨0, _⟩ => exact (show (60 : Int) + ((0 : Nat) : Int) = ((i ⟨0, by decide⟩).val : Int) by omega)

/-! ## The fused head read at a position, over any operands -/

/-- Columns 0..59 of the head's matrix: the second scatter (column 60) misses, the first lands update (j, o). -/
private theorem head_matrix_policy (x : S256x64.Idx → EReal) (p : S256x60.Idx → EReal) (v : S256.Idx → EReal)
    (j : Fin 256) (o : Fin 60) :
    Host.scatter scatter_S256x64_S1_S256_0_1_1_0 (fun _ b => b)
        (Host.scatter scatter_S256x64_S1_S256x60_01_n_1_0 (fun _ b => b) x (fun _ => (0#32 : BitVec 32)) p)
        (fun _ => (60#32 : BitVec 32)) v (ix2 j (⟨o.val, by omega⟩ : Fin 64))
      = p (ix2 j o) := by
  rw [Cert.Lib.scatter_apply_of_miss _ _ _ _ _ _ (fun j' hj => by
    have h := ((lands_value_vector j' _).mp hj).2
    have ho := o.isLt
    have h' : o.val = 60 := h
    omega)]
  refine Cert.Lib.scatter_apply_of_hit _ _ _ _ _ _ (ix2 j o) ((lands_policy_matrix _ _).mpr ⟨rfl, rfl⟩) (fun j' hj => ?_)
  have h := (lands_policy_matrix j' _).mp hj
  have h0 : j.val = (j' ⟨0, by decide⟩).val := h.1
  have h1 : o.val = (j' ⟨1, by decide⟩).val := h.2
  funext a
  match a with
  | ⟨0, _⟩ => exact Fin.ext h0.symm
  | ⟨1, _⟩ => exact Fin.ext h1.symm

/-- Column 60 of the head's matrix: the second scatter lands update j there. -/
private theorem head_matrix_value (x : S256x64.Idx → EReal) (v : S256.Idx → EReal) (j : Fin 256) :
    Host.scatter scatter_S256x64_S1_S256_0_1_1_0 (fun _ b => b) x (fun _ => (60#32 : BitVec 32)) v
        (ix2 j (⟨60, by omega⟩ : Fin 64))
      = v (ix1 j) := by
  refine Cert.Lib.scatter_apply_of_hit _ _ _ _ _ _ (ix1 j) ((lands_value_vector _ _).mpr ⟨rfl, rfl⟩) (fun j' hj => ?_)
  have h := (lands_value_vector j' _).mp hj
  have h0 : j.val = (j' ⟨0, by decide⟩).val := h.1
  funext a
  match a with
  | ⟨0, _⟩ => exact Fin.ext h0.symm

/-- Entries 0..59 of the head's bias: the second scatter (entry 60) misses, the first lands update o. -/
private theorem head_bias_policy (x : S64.Idx → EReal) (p : S60.Idx → EReal) (v : S_.Idx → EReal) (o : Fin 60) :
    Host.scatter scatter_S64_S1_S__n_0_0_0 (fun _ b => b)
        (Host.scatter scatter_S64_S1_S60_0_n_0_0 (fun _ b => b) x (fun _ => (0#32 : BitVec 32)) p)
        (fun _ => (60#32 : BitVec 32)) v (ix1 (⟨o.val, by omega⟩ : Fin 64))
      = p (ix1 o) := by
  rw [Cert.Lib.scatter_apply_of_miss _ _ _ _ _ _ (fun j' hj => by
    have h := (lands_value_bias j' _).mp hj
    have ho := o.isLt
    have h' : o.val = 60 := h
    omega)]
  refine Cert.Lib.scatter_apply_of_hit _ _ _ _ _ _ (ix1 o) ((lands_policy_bias _ _).mpr rfl) (fun j' hj => ?_)
  have h := (lands_policy_bias j' _).mp hj
  have h0 : o.val = (j' ⟨0, by decide⟩).val := h
  funext a
  match a with
  | ⟨0, _⟩ => exact Fin.ext h0.symm

/-- Entry 60 of the head's bias: the second scatter lands its one update there. -/
private theorem head_bias_value (x : S64.Idx → EReal) (v : S_.Idx → EReal) :
    Host.scatter scatter_S64_S1_S__n_0_0_0 (fun _ b => b) x (fun _ => (60#32 : BitVec 32)) v
        (ix1 (⟨60, by omega⟩ : Fin 64))
      = v ix0 := by
  refine Cert.Lib.scatter_apply_of_hit _ _ _ _ _ _ ix0 ((lands_value_bias _ _).mpr rfl) (fun j' _ => eq_ix0 j')

/-! ## The two reshapes read at an index -/

/-- The value vector, a 256 x 1 column read as a 256-vector: entry j is entry (j, 0). -/
private theorem column_as_vector (x : S256x1.Idx → EReal) (j : Fin 256) :
    shapeCast S256 x shapeCasts_S256x1_S256 (ix1 j) = x (ix2 j (0 : Fin 1)) := by
  refine shapeCast_apply _ _ _ _ ?_
  show ((⟨2, ![256, 1]⟩ : Shape).rowMajor (ix2 j (0 : Fin 1))).val = ((⟨1, ![256]⟩ : Shape).rowMajor (ix1 j)).val
  rw [Shape.rowMajor_val_two, Shape.rowMajor_val_one]
  show j.val * 1 + 0 = j.val
  omega

/-- The value bias, a 1-vector read as a scalar: its one entry. -/
private theorem singleton_as_scalar (x : S1.Idx → EReal) :
    shapeCast S_ x shapeCasts_S1_S_ ix0 = x (ix1 (0 : Fin 1)) := by
  refine shapeCast_apply _ _ _ _ ?_
  show ((⟨1, ![1]⟩ : Shape).rowMajor (ix1 (0 : Fin 1))).val = (S_.rowMajor ix0).val
  rw [Shape.rowMajor_val_one]
  have h1 : (S_.rowMajor ix0).val < 1 :=
    lt_of_lt_of_eq (S_.rowMajor ix0).isLt (Shape.numel_eq_one (s := S_) (fun a => a.elim0))
  show 0 = (S_.rowMajor ix0).val
  omega

variable (m : (ℓ : Loc nD τ sig) → Buf (Elt Ideal) ℓ)

/-- The transposed first index array at (k, b) is the first index argument at (b, k). -/
theorem V_v0_apply (c : Dev nD) (k : Fin 3) (b : Fin 131072) :
    (V m c main_v0 : S3x131072.Idx → BitVec 32) (ix2 k b) = (m ((c : Thread nD τ).loc main_arg0) : S131072x3.Idx → BitVec 32) (ix2 b k) := by
  have e : (V m c main_v0 : S3x131072.Idx → BitVec 32)
      = transpose S3x131072 [1, 0] (m ((c : Thread nD τ).loc main_arg0)) Facts₀.transposes_S131072x3_S3x131072_1_0 := by
    dsimp only [Gen.V, Gen.hostOps0]; after_results
  rw [e]
  exact transpose_ix2_apply _ _ k b

/-- The transposed second index array at (k, b) is the second index argument at (b, k). -/
theorem V_v1_apply (c : Dev nD) (k : Fin 3) (b : Fin 131072) :
    (V m c main_v1 : S3x131072.Idx → BitVec 32) (ix2 k b) = (m ((c : Thread nD τ).loc main_arg1) : S131072x3.Idx → BitVec 32) (ix2 b k) := by
  have e : (V m c main_v1 : S3x131072.Idx → BitVec 32)
      = transpose S3x131072 [1, 0] (m ((c : Thread nD τ).loc main_arg1)) Facts₀.transposes_S131072x3_S3x131072_1_0 := by
    dsimp only [Gen.V, Gen.hostOps0]; after_results
  rw [e]
  exact transpose_ix2_apply _ _ k b

/-- The table the launch finds is the table argument. -/
theorem V_v21_apply (c : Dev nD) (i : S120x256.Idx) :
    (V m c main_v21 : S120x256.Idx → EReal) i = (m ((c : Thread nD τ).loc main_arg3) : S120x256.Idx → EReal) i := by
  have e : (V m c main_v21 : S120x256.Idx → EReal)
      = truncf (F := Ideal) .bf16 (m ((c : Thread nD τ).loc main_arg3)) bitsLt_bf16_f32 := by
    dsimp only [Gen.V, Gen.hostOps0]; after_results
  rw [e]
  rfl

/-- The first stretch of the first layer's matrix: rows 0..255. -/
theorem V_v3_apply (c : Dev nD) (i j : Fin 256) :
    (V m c main_v3 : S256x256.Idx → EReal) (ix2 i j)
      = (m ((c : Thread nD τ).loc main_arg5) : S578x256.Idx → EReal) (ix2 (⟨i.val, by omega⟩ : Fin 578) j) := by
  have e : (V m c main_v3 : S256x256.Idx → EReal)
      = truncf (F := Ideal) .bf16 (extractStridedSlice S256x256 ![0, 0] (m ((c : Thread nD τ).loc main_arg5)) slices_S578x256_S256x256_0_0) bitsLt_bf16_f32 := by
    dsimp only [Gen.V, Gen.hostOps0]; after_results
  rw [e]
  show extractStridedSlice S256x256 ![0, 0] (m ((c : Thread nD τ).loc main_arg5)) slices_S578x256_S256x256_0_0 (ix2 i j) = _
  exact extractStridedSlice_apply _ _ _ _ _ (fun a => match a with | ⟨0, _⟩ => (Nat.zero_add _).symm | ⟨1, _⟩ => (Nat.zero_add _).symm)

/-- The second stretch: rows 256..511. -/
theorem V_v5_apply (c : Dev nD) (i j : Fin 256) :
    (V m c main_v5 : S256x256.Idx → EReal) (ix2 i j)
      = (m ((c : Thread nD τ).loc main_arg5) : S578x256.Idx → EReal) (ix2 (⟨256 + i.val, by omega⟩ : Fin 578) j) := by
  have e : (V m c main_v5 : S256x256.Idx → EReal)
      = truncf (F := Ideal) .bf16 (extractStridedSlice S256x256 ![256, 0] (m ((c : Thread nD τ).loc main_arg5)) slices_S578x256_S256x256_256_0) bitsLt_bf16_f32 := by
    dsimp only [Gen.V, Gen.hostOps0]; after_results
  rw [e]
  show extractStridedSlice S256x256 ![256, 0] (m ((c : Thread nD τ).loc main_arg5)) slices_S578x256_S256x256_256_0 (ix2 i j) = _
  exact extractStridedSlice_apply _ _ _ _ _ (fun a => match a with | ⟨0, _⟩ => rfl | ⟨1, _⟩ => (Nat.zero_add _).symm)

/-- The third stretch: rows 512..577. -/
theorem V_v7_apply (c : Dev nD) (i : Fin 66) (j : Fin 256) :
    (V m c main_v7 : S66x256.Idx → EReal) (ix2 i j)
      = (m ((c : Thread nD τ).loc main_arg5) : S578x256.Idx → EReal) (ix2 (⟨512 + i.val, by omega⟩ : Fin 578) j) := by
  have e : (V m c main_v7 : S66x256.Idx → EReal)
      = truncf (F := Ideal) .bf16 (extractStridedSlice S66x256 ![512, 0] (m ((c : Thread nD τ).loc main_arg5)) slices_S578x256_S66x256_512_0) bitsLt_bf16_f32 := by
    dsimp only [Gen.V, Gen.hostOps0]; after_results
  rw [e]
  show extractStridedSlice S66x256 ![512, 0] (m ((c : Thread nD τ).loc main_arg5)) slices_S578x256_S66x256_512_0 (ix2 i j) = _
  exact extractStridedSlice_apply _ _ _ _ _ (fun a => match a with | ⟨0, _⟩ => rfl | ⟨1, _⟩ => (Nat.zero_add _).symm)

/-- The fused head's matrix on columns 0..59 is the policy matrix. -/
theorem V_v14_policy (c : Dev nD) (j : Fin 256) (o : Fin 60) :
    (V m c main_v14 : S256x64.Idx → EReal) (ix2 j (⟨o.val, by omega⟩ : Fin 64))
      = (m ((c : Thread nD τ).loc main_arg9) : S256x60.Idx → EReal) (ix2 j o) := by
  have e : (V m c main_v14 : S256x64.Idx → EReal)
      = truncf (F := Ideal) .bf16
          (Host.scatter scatter_S256x64_S1_S256_0_1_1_0 (fun _ b => b)
            (Host.scatter scatter_S256x64_S1_S256x60_01_n_1_0 (fun _ b => b)
              (broadcastInDim S256x64 ![] bcast_S_S256x64 (constant (F := Ideal) S_ .f32 0x00000000#32))
              (broadcastInDim S1 ![] bcast_S_S1 (constantI S_ 32 0#32))
              (m ((c : Thread nD τ).loc main_arg9)))
            (broadcastInDim S1 ![] bcast_S_S1 (constantI S_ 32 60#32))
            (shapeCast S256 (m ((c : Thread nD τ).loc main_arg7)) shapeCasts_S256x1_S256))
          bitsLt_bf16_f32 := by
    dsimp only [Gen.V, Gen.hostOps0]; after_results <;> rfl
  rw [e]
  exact head_matrix_policy _ _ _ j o

/-- The fused head's matrix on column 60 is the value vector. -/
theorem V_v14_value (c : Dev nD) (j : Fin 256) :
    (V m c main_v14 : S256x64.Idx → EReal) (ix2 j (⟨60, by omega⟩ : Fin 64))
      = (m ((c : Thread nD τ).loc main_arg7) : S256x1.Idx → EReal) (ix2 j (0 : Fin 1)) := by
  have e : (V m c main_v14 : S256x64.Idx → EReal)
      = truncf (F := Ideal) .bf16
          (Host.scatter scatter_S256x64_S1_S256_0_1_1_0 (fun _ b => b)
            (Host.scatter scatter_S256x64_S1_S256x60_01_n_1_0 (fun _ b => b)
              (broadcastInDim S256x64 ![] bcast_S_S256x64 (constant (F := Ideal) S_ .f32 0x00000000#32))
              (broadcastInDim S1 ![] bcast_S_S1 (constantI S_ 32 0#32))
              (m ((c : Thread nD τ).loc main_arg9)))
            (broadcastInDim S1 ![] bcast_S_S1 (constantI S_ 32 60#32))
            (shapeCast S256 (m ((c : Thread nD τ).loc main_arg7)) shapeCasts_S256x1_S256))
          bitsLt_bf16_f32 := by
    dsimp only [Gen.V, Gen.hostOps0]; after_results <;> rfl
  rw [e]
  exact (head_matrix_value _ _ j).trans (column_as_vector _ j)

/-- The fused head's bias on entries 0..59 is the policy bias. -/
theorem V_v20_policy (c : Dev nD) (o : Fin 60) :
    (V m c main_v20 : S64.Idx → EReal) (ix1 (⟨o.val, by omega⟩ : Fin 64))
      = (m ((c : Thread nD τ).loc main_arg10) : S60.Idx → EReal) (ix1 o) := by
  have e : (V m c main_v20 : S64.Idx → EReal)
      = Host.scatter scatter_S64_S1_S__n_0_0_0 (fun _ b => b)
          (Host.scatter scatter_S64_S1_S60_0_n_0_0 (fun _ b => b)
            (broadcastInDim S64 ![] bcast_S_S64 (constant (F := Ideal) S_ .f32 0x00000000#32))
            (broadcastInDim S1 ![] bcast_S_S1 (constantI S_ 32 0#32))
            (m ((c : Thread nD τ).loc main_arg10)))
          (broadcastInDim S1 ![] bcast_S_S1 (constantI S_ 32 60#32))
          (shapeCast S_ (m ((c : Thread nD τ).loc main_arg8)) shapeCasts_S1_S_) := by
    dsimp only [Gen.V, Gen.hostOps0]; after_results <;> rfl
  rw [e]
  exact head_bias_policy _ _ _ o

/-- The fused head's bias at entry 60 is the value bias. -/
theorem V_v20_value (c : Dev nD) :
    (V m c main_v20 : S64.Idx → EReal) (ix1 (⟨60, by omega⟩ : Fin 64))
      = (m ((c : Thread nD τ).loc main_arg8) : S1.Idx → EReal) (ix1 (0 : Fin 1)) := by
  have e : (V m c main_v20 : S64.Idx → EReal)
      = Host.scatter scatter_S64_S1_S__n_0_0_0 (fun _ b => b)
          (Host.scatter scatter_S64_S1_S60_0_n_0_0 (fun _ b => b)
            (broadcastInDim S64 ![] bcast_S_S64 (constant (F := Ideal) S_ .f32 0x00000000#32))
            (broadcastInDim S1 ![] bcast_S_S1 (constantI S_ 32 0#32))
            (m ((c : Thread nD τ).loc main_arg10)))
          (broadcastInDim S1 ![] bcast_S_S1 (constantI S_ 32 60#32))
          (shapeCast S_ (m ((c : Thread nD τ).loc main_arg8)) shapeCasts_S1_S_) := by
    dsimp only [Gen.V, Gen.hostOps0]; after_results <;> rfl
  rw [e]
  exact (head_bias_value _ _).trans (singleton_as_scalar _)

end Cert.KernelIdeal.Glue

end
-- ==== Proof.SpecArr.lean ====
/-
  The two results as whole-array functions of the eleven arguments: the policy array (131072 x 60) and the value
  array (131072), each entry the network of Spec.lean at that batch row. Both programs' runs are stated with these.
-/
import proofs.«404441_j58291296141587_3_alg».proof.Proof.Spec
import Idealize.ShloMosaic.Lib.ValueIdx

noncomputable section

namespace Cert.Net

open Idealize.ShloMosaic Idealize.ShloMosaic.ValueIdx

/-- The first layer's output for batch row b: the accumulators of the row's three index words per side (x0, x1)
    over the table x3 and bias x4, the row's dense features x2, the first layer's matrix x5 and bias x6. -/
def hid (x0 x1 : IVec ⟨2, ![131072, 3]⟩ 32) (x2 : FVec Ideal ⟨2, ![131072, 66]⟩ .f32)
    (x3 : FVec Ideal ⟨2, ![120, 256]⟩ .f32) (x4 : FVec Ideal ⟨1, ![256]⟩ .f32)
    (x5 : FVec Ideal ⟨2, ![578, 256]⟩ .f32) (x6 : FVec Ideal ⟨1, ![256]⟩ .f32) (b : Fin 131072) : Fin 256 → EReal :=
  hidden (fun i j => x5 (ix2 i j)) (fun j => x6 (ix1 j))
    (acc (fun r f => x3 (ix2 r f)) (fun f => x4 (ix1 f)) (fun k => row (x0 (ix2 b k))))
    (acc (fun r f => x3 (ix2 r f)) (fun f => x4 (ix1 f)) (fun k => row (x1 (ix2 b k))))
    (fun i => x2 (ix2 b i))

/-- The policy array: entry (b, o) is the policy head (matrix x9, bias x10) on row b's first layer. -/
def policyArr (x0 x1 : IVec ⟨2, ![131072, 3]⟩ 32) (x2 : FVec Ideal ⟨2, ![131072, 66]⟩ .f32)
    (x3 : FVec Ideal ⟨2, ![120, 256]⟩ .f32) (x4 : FVec Ideal ⟨1, ![256]⟩ .f32)
    (x5 : FVec Ideal ⟨2, ![578, 256]⟩ .f32) (x6 : FVec Ideal ⟨1, ![256]⟩ .f32)
    (x9 : FVec Ideal ⟨2, ![256, 60]⟩ .f32) (x10 : FVec Ideal ⟨1, ![60]⟩ .f32) : FVec Ideal ⟨2, ![131072, 60]⟩ .f32 :=
  fun i => policy (fun j o => x9 (ix2 j o)) (fun o => x10 (ix1 o)) (hid x0 x1 x2 x3 x4 x5 x6 (i 0)) (i 1)

/-- The value array: entry b is the value head (vector x7, bias x8) on row b's first layer. -/
def valueArr (x0 x1 : IVec ⟨2, ![131072, 3]⟩ 32) (x2 : FVec Ideal ⟨2, ![131072, 66]⟩ .f32)
    (x3 : FVec Ideal ⟨2, ![120, 256]⟩ .f32) (x4 : FVec Ideal ⟨1, ![256]⟩ .f32)
    (x5 : FVec Ideal ⟨2, ![578, 256]⟩ .f32) (x6 : FVec Ideal ⟨1, ![256]⟩ .f32)
    (x7 : FVec Ideal ⟨2, ![256, 1]⟩ .f32) (x8 : FVec Ideal ⟨1, ![1]⟩ .f32) : FVec Ideal ⟨1, ![131072]⟩ .f32 :=
  fun i => value (fun j => x7 (ix2 j 0)) (x8 (ix1 0)) (hid x0 x1 x2 x3 x4 x5 x6 (i 0))

end Cert.Net

end
-- ==== Proof.KernelNet.lean ====
/-
  The kernel computes the network of Spec.lean. After the launch the policy and value arrays are the network on each
  row of the arrays the launch finds (KernelValue.lean); those arrays are the arguments transposed, cut and fused
  (HostGlue.lean); and the first layer as three partial products over the matrix's three stretches is the first layer
  over the whole matrix (Spec.lean's hidden_eq_hidden3). So the two arrays are the policy and value arrays of
  SpecArr.lean at the program's arguments.
-/
import proofs.«404441_j58291296141587_3_alg».proof.Proof.KernelValue
import proofs.«404441_j58291296141587_3_alg».proof.Proof.HostGlue
import proofs.«404441_j58291296141587_3_alg».proof.Proof.SpecArr

noncomputable section

namespace Cert.KernelIdeal.KNet

open Cert.KernelIdeal Cert.KernelIdeal.Gen Idealize.ShloMosaic Idealize.ShloMosaic.TcCoe Idealize.SL.Sem Idealize.ShloMosaic.ValueIdx

/-! ## The network's pieces depend only on their arguments' values -/

private theorem acc_congr {t t' : Fin 120 → Fin 256 → EReal} {b b' : Fin 256 → EReal} {r r' : Fin 3 → Fin 120}
    (e1 : t = t') (e2 : b = b') (e3 : r = r') : Net.acc t b r = Net.acc t' b' r' := by rw [e1, e2, e3]

private theorem hidden3_congr {wa wa' wb wb' : Fin 256 → Fin 256 → EReal} {wc wc' : Fin 66 → Fin 256 → EReal}
    {b1 b1' a a2 a' a2' : Fin 256 → EReal} {d d' : Fin 66 → EReal}
    (e1 : wa = wa') (e2 : wb = wb') (e3 : wc = wc') (e4 : b1 = b1') (e5 : a = a2) (e6 : a' = a2') (e7 : d = d') :
    Net.hidden3 wa wb wc b1 a a' d = Net.hidden3 wa' wb' wc' b1' a2 a2' d' := by rw [e1, e2, e3, e4, e5, e6, e7]

private theorem policy_congr {wp wp' : Fin 256 → Fin 60 → EReal} {bp bp' : Fin 60 → EReal} {h h' : Fin 256 → EReal}
    (o : Fin 60) (e1 : wp = wp') (e2 : bp = bp') (e3 : h = h') : Net.policy wp bp h o = Net.policy wp' bp' h' o := by
  rw [e1, e2, e3]

private theorem value_congr {wv wv' : Fin 256 → EReal} {bv bv' : EReal} {h h' : Fin 256 → EReal}
    (e1 : wv = wv') (e2 : bv = bv') (e3 : h = h') : Net.value wv bv h = Net.value wv' bv' h' := by rw [e1, e2, e3]

variable (m : (ℓ : Loc nD τ sig) → Buf (Elt Ideal) ℓ)

/-- The first layer on row b of the arrays the launch finds is the first layer on row b of the arguments. -/
theorem vhid_eq (c : Dev nD) (b : Fin 131072) :
    BlockValue.vhid m c b
      = Net.hid (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b := by
  unfold BlockValue.vhid Net.hid
  rw [Net.hidden_eq_hidden3]
  refine hidden3_congr ?_ ?_ ?_ ?_ ?_ ?_ ?_
  · exact funext fun i => funext fun j => Glue.V_v3_apply m c i j
  · exact funext fun i => funext fun j => Glue.V_v5_apply m c i j
  · exact funext fun i => funext fun j => Glue.V_v7_apply m c i j
  · exact funext fun j => congrFun (V_main_arg6 m c) (ix1 j)
  · exact acc_congr (funext fun r => funext fun f => Glue.V_v21_apply m c (ix2 r f))
      (funext fun f => congrFun (V_main_arg4 m c) (ix1 f)) (funext fun k => congrArg Net.row (Glue.V_v0_apply m c k b))
  · exact acc_congr (funext fun r => funext fun f => Glue.V_v21_apply m c (ix2 r f))
      (funext fun f => congrFun (V_main_arg4 m c) (ix1 f)) (funext fun k => congrArg Net.row (Glue.V_v1_apply m c k b))
  · exact funext fun i => congrFun (V_main_arg2 m c) (ix2 b i)

/-- The policy array after the launch is the policy array of the arguments. -/
theorem polV_eq (c : Dev nD) :
    BlockValue.polV m c
      = Net.policyArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg9)) (m ((c : Thread nD τ).loc main_arg10)) := by
  funext i
  exact policy_congr (i 1) (funext fun j => funext fun o => Glue.V_v14_policy m c j o)
    (funext fun o => Glue.V_v20_policy m c o) (vhid_eq m c (i 0))

/-- The value array after the launch is the value array of the arguments. -/
theorem valV_eq (c : Dev nD) :
    BlockValue.valV m c
      = Net.valueArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  funext i
  exact value_congr (funext fun j => Glue.V_v14_value m c j) (Glue.V_v20_value m c) (vhid_eq m c (i 0))

end Cert.KernelIdeal.KNet

end
-- ==== Proof.LibSlotGather.lean ====
/-
  THE SLOT GATHER READ AT AN INDEX. What `table[idx]` of a rank-2 table `table : [N, C]` at a rank-2 array of row
  indices `idx : [n, K]` lowers to: a `stablehlo.gather` with offset_dims `[2]`, collapsed_slice_dims `[0]`,
  start_index_map `[0]`, index_vector_dim `2` and slice_sizes `[1, C]`, over the indices kept as an `[n, K, 1]`
  column. Its result is `[n, K, C]`, and the element at `(p, k, q)` is the table's at `(row, q)`, where `row` is the
  start index `idx[p, k, 0]` read as a SIGNED integer and CLAMPED into `[0, N − 1]`.
-/
import Idealize.ShloMosaic.PureOps.Ideal
import Idealize.ShloMosaic.Lib.ValueIdx
noncomputable section
namespace Idealize.ShloMosaic.SlotGather
open Idealize.ShloMosaic Idealize.ShloMosaic.ValueIdx

/-- The dimension numbers of a row gather out of an [N, C] table at an [n, K, 1] column of row indices. -/
abbrev slotDims (N C n K : Nat)
    (wf : GatherDims.WF ⟨2, ![N, C]⟩ ⟨3, ![n, K, 1]⟩ ⟨3, ![n, K, C]⟩ [2] [0] [] [0] [] 2 ![1, C]) :
    GatherDims ⟨2, ![N, C]⟩ ⟨3, ![n, K, 1]⟩ ⟨3, ![n, K, C]⟩ where
  offsetDims := [2]
  collapsedSliceDims := [0]
  operandBatchingDims := []
  startIndicesBatchingDims := []
  startIndexMap := [0]
  indexVectorDim := 2
  sliceSizes := ![1, C]
  wf := wf

/-- The slot gather read at (p, k, q): the table at the clamped signed start index of slot (p, k), column q. -/
theorem slotGather_apply {α : Type} {N C n K w : Nat} (hN : 0 < N)
    (wf : GatherDims.WF ⟨2, ![N, C]⟩ ⟨3, ![n, K, 1]⟩ ⟨3, ![n, K, C]⟩ [2] [0] [] [0] [] 2 ![1, C])
    (x : (⟨2, ![N, C]⟩ : Shape).Idx → α) (idx : IVec ⟨3, ![n, K, 1]⟩ w) (p : Fin n) (k : Fin K) (q : Fin C) :
    Host.gather (slotDims N C n K wf) x idx (ix3 p k q)
      = x (ix2 (⟨min (idx (ix3 p k (0 : Fin 1))).toInt.toNat (N - 1), by omega⟩ : Fin N) q) := by
  -- the gather reads the operand at its operand index: compare the two indices axis by axis, as naturals
  unfold Host.gather
  congr 1
  funext a
  refine Fin.ext ?_
  match a with
  | ⟨0, _⟩ =>
    -- AXIS 0, collapsed and start-indexed: no batching coordinate (no batching axes), no offset coordinate (a collapsed
    -- axis is not a kept one), so the operand coordinate is the clamped start alone
    show (slotDims N C n K wf).start (ix3 p k q) idx 0 + (slotDims N C n K wf).batchCoord (ix3 p k q) 0
        + (slotDims N C n K wf).offCoord (ix3 p k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (slotDims N C n K wf).startIndexMap from List.mem_singleton.mpr rfl)]
    -- the start index's one component is read at (p, k, 0): the result's batch coordinates p and k on the start
    -- indices' axes 0 and 1, the component's number 0 on the index vector's axis 2
    have hsi : (slotDims N C n K wf).siIdx (ix3 p k q) ⟨List.idxOf (0 : Fin 2) (slotDims N C n K wf).startIndexMap,
        List.idxOf_lt_length_iff.2 (List.mem_singleton.mpr rfl)⟩ = ix3 p k (0 : Fin 1) := by
      funext b; refine Fin.ext ?_
      match b with
      | ⟨0, _⟩ => rfl
      | ⟨1, _⟩ => rfl
      | ⟨2, _⟩ => rfl
    rw [hsi]
    -- the clamp's upper end: the axis's extent N less the slice size 1
    rfl
  | ⟨1, _⟩ =>
    -- AXIS 1, an offset axis: the start index map does not name it, so the start is 0; there is no batching
    -- coordinate; it is the operand's one kept axis, read by the result's one offset axis, whose coordinate is q
    show (slotDims N C n K wf).start (ix3 p k q) idx 1 + (slotDims N C n K wf).batchCoord (ix3 p k q) 1
        + (slotDims N C n K wf).offCoord (ix3 p k q) 1 = q.val
    have hk : (1 : Fin 2) ∈ (slotDims N C n K wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (slotDims N C n K wf).startIndexMap by
      show (1 : Fin 2) ∉ [(0 : Fin 2)]; decide), dif_pos hk]
    simp only [Nat.zero_add]
    rfl
end Idealize.ShloMosaic.SlotGather
end
-- ==== Proof.RefSpec.lean ====
/-
  The reference computes the network of Spec.lean: its two results, index by index, are the policy and value
  arrays of SpecArr.lean, provided no index word is negative (then the wrap-around of negative indices does nothing
  and the gather's clamped start row is the row Spec.lean selects).
-/
import proofs.«404441_j58291296141587_3_alg».proof.Proof.Gen.ReferenceIdeal.Read
import proofs.«404441_j58291296141587_3_alg».proof.Proof.SpecArr
import proofs.«404441_j58291296141587_3_alg».proof.Proof.LibSlotGather
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefNet

open Cert.ReferenceIdeal Cert.ReferenceIdeal.Gen Cert.ReferenceIdeal.Read Idealize.ShloMosaic Idealize.ShloMosaic.ValueIdx

/-! ## The wrap-around of a negative index does nothing to a word that is not negative -/

/-- On a word that is not negative, read signed, "select (x < 0) y x" is x. -/
private theorem wrap_word (x y : BitVec 32) (h : 0 ≤ x.toInt) :
    Scalar.select (IntOp.cmpi .slt x 0#32) y x = x := by
  have hc : ¬ IntOp.cmpi .slt x 0#32 = 1#1 := fun h1 => by
    have h2 : x.toInt < (0#32).toInt := IntOp.cmpi_slt.mp h1
    rw [BitVec.toInt_zero] at h2
    omega
  exact if_neg hc

/-- The first side's wrapped index array is the index array itself. -/
private theorem wrap_s (x0 : (⟨S131072x3, .i32⟩ : BufTy).Contents (Elt Ideal)) (h0 : ∀ i, 0 ≤ (x0 i).toInt)
    (j : S131072x3.Idx) : val_main_v4 (F := Ideal) x0 j = x0 j := by
  rw [val_main_v4_apply, val_main_v1_apply, val_main_v0_apply, val_main_c_apply]
  exact wrap_word (x0 j) _ (h0 j)

/-- The second side's wrapped index array is the index array itself. -/
private theorem wrap_n (x1 : (⟨S131072x3, .i32⟩ : BufTy).Contents (Elt Ideal)) (h1 : ∀ i, 0 ≤ (x1 i).toInt)
    (j : S131072x3.Idx) : val_main_v15 (F := Ideal) x1 j = x1 j := by
  rw [val_main_v15_apply, val_main_v12_apply, val_main_v11_apply, val_main_c_1_apply]
  exact wrap_word (x1 j) _ (h1 j)

/-! ## The two gathers read at (b, k, f): the table row Spec.lean selects for slot (b, k), at feature f -/

/-- The printed gather record is the row gather out of a 120 x 256 table at 131072 x 3 slots. -/
private theorem gatherDims_eq :
    gather_S120x256_S131072x3x1_S131072x3x256_2_0_n_n_0_2_1256
      = SlotGather.slotDims 120 256 131072 3 Facts₀.gather_S120x256_S131072x3x1_S131072x3x256_2_0_n_n_0_2_1256_wf := rfl

private theorem gather_s (x0 : (⟨S131072x3, .i32⟩ : BufTy).Contents (Elt Ideal)) (x3 : (⟨S120x256, .f32⟩ : BufTy).Contents (Elt Ideal))
    (h0 : ∀ i, 0 ≤ (x0 i).toInt) (b : Fin 131072) (k : Fin 3) (f : Fin 256) :
    val_main_v6 (F := Ideal) x0 x3 (ix3 b k f) = x3 (ix2 (Net.row (x0 (ix2 b k))) f) := by
  have e5 : idx_main_v5 (ix3 b k (0 : Fin 1)) = ix2 b k :=
    funext fun a => by match a with | ⟨0, _⟩ => rfl | ⟨1, _⟩ => rfl
  have e : val_main_v5 (F := Ideal) x0 (ix3 b k (0 : Fin 1)) = x0 (ix2 b k) := by
    rw [val_main_v5_apply, wrap_s x0 h0, e5]
  unfold val_main_v6
  rw [gatherDims_eq, SlotGather.slotGather_apply (by decide)]
  refine congrArg x3 (congrArg (fun r => ix2 r f) (Fin.ext ?_))
  show min (val_main_v5 (F := Ideal) x0 (ix3 b k (0 : Fin 1))).toInt.toNat (120 - 1) = min (x0 (ix2 b k)).toInt.toNat 119
  rw [e]

private theorem gather_n (x1 : (⟨S131072x3, .i32⟩ : BufTy).Contents (Elt Ideal)) (x3 : (⟨S120x256, .f32⟩ : BufTy).Contents (Elt Ideal))
    (h1 : ∀ i, 0 ≤ (x1 i).toInt) (b : Fin 131072) (k : Fin 3) (f : Fin 256) :
    val_main_v17 (F := Ideal) x1 x3 (ix3 b k f) = x3 (ix2 (Net.row (x1 (ix2 b k))) f) := by
  have e16 : idx_main_v16 (ix3 b k (0 : Fin 1)) = ix2 b k :=
    funext fun a => by match a with | ⟨0, _⟩ => rfl | ⟨1, _⟩ => rfl
  have e : val_main_v16 (F := Ideal) x1 (ix3 b k (0 : Fin 1)) = x1 (ix2 b k) := by
    rw [val_main_v16_apply, wrap_n x1 h1, e16]
  unfold val_main_v17
  rw [gatherDims_eq, SlotGather.slotGather_apply (by decide)]
  refine congrArg x3 (congrArg (fun r => ix2 r f) (Fin.ext ?_))
  show min (val_main_v16 (F := Ideal) x1 (ix3 b k (0 : Fin 1))).toInt.toNat (120 - 1) = min (x1 (ix2 b k)).toInt.toNat 119
  rw [e]

/-! ## The two accumulators -/

/-- The first side's accumulator stage at (b, f). -/
private theorem acc_s (x0 : (⟨S131072x3, .i32⟩ : BufTy).Contents (Elt Ideal)) (x3 : (⟨S120x256, .f32⟩ : BufTy).Contents (Elt Ideal))
    (x4 : (⟨S256, .f32⟩ : BufTy).Contents (Elt Ideal)) (h0 : ∀ i, 0 ≤ (x0 i).toInt) (b : Fin 131072) (f : Fin 256) :
    val_main_v22 (F := Ideal) x0 x3 x4 (ix2 b f)
      = Net.acc (fun r f => x3 (ix2 r f)) (fun f => x4 (ix1 f)) (fun k => Net.row (x0 (ix2 b k))) f := by
  have e7 : ∀ k : Fin 3, idx_main_v7 (ix2 b f) k = ix3 b k f := fun k =>
    funext fun a => by match a with | ⟨0, _⟩ => rfl | ⟨1, _⟩ => rfl | ⟨2, _⟩ => rfl
  have e9 : idx_main_v8 (idx_main_v9 (ix2 b f)) = ix1 f :=
    funext fun a => by match a with | ⟨0, _⟩ => rfl
  unfold Net.acc
  rw [val_main_v22_apply, val_main_v10_apply, val_main_v7_apply, val_main_v9_apply, val_main_v8_apply,
    val_main_call0_v0_apply, val_main_call0_cst_apply, val_main_cst_apply, e9]
  simp only [e7, gather_s x0 x3 h0, Ideal.maximumf_def, Ideal.addf_def, Ideal.ofBits_def, Ideal.ofBits_zero_f32, zero_add]

/-- The second side's accumulator stage at (b, f). -/
private theorem acc_n (x1 : (⟨S131072x3, .i32⟩ : BufTy).Contents (Elt Ideal)) (x3 : (⟨S120x256, .f32⟩ : BufTy).Contents (Elt Ideal))
    (x4 : (⟨S256, .f32⟩ : BufTy).Contents (Elt Ideal)) (h1 : ∀ i, 0 ≤ (x1 i).toInt) (b : Fin 131072) (f : Fin 256) :
    val_main_v23 (F := Ideal) x1 x3 x4 (ix2 b f)
      = Net.acc (fun r f => x3 (ix2 r f)) (fun f => x4 (ix1 f)) (fun k => Net.row (x1 (ix2 b k))) f := by
  have e18 : ∀ k : Fin 3, idx_main_v18 (ix2 b f) k = ix3 b k f := fun k =>
    funext fun a => by match a with | ⟨0, _⟩ => rfl | ⟨1, _⟩ => rfl | ⟨2, _⟩ => rfl
  have e20 : idx_main_v19 (idx_main_v20 (ix2 b f)) = ix1 f :=
    funext fun a => by match a with | ⟨0, _⟩ => rfl
  unfold Net.acc
  rw [val_main_v23_apply, val_main_v21_apply, val_main_v18_apply, val_main_v20_apply, val_main_v19_apply,
    val_main_call1_v0_apply, val_main_call1_cst_apply, val_main_cst_3_apply, e20]
  simp only [e18, gather_n x1 x3 h1, Ideal.maximumf_def, Ideal.addf_def, Ideal.ofBits_def, Ideal.ofBits_zero_f32, zero_add]

/-! ## The first layer's 578 inputs: the concatenation read at (b, i) -/

private theorem cat_s (x0 x1 : (⟨S131072x3, .i32⟩ : BufTy).Contents (Elt Ideal)) (x2 : (⟨S131072x66, .f32⟩ : BufTy).Contents (Elt Ideal))
    (x3 : (⟨S120x256, .f32⟩ : BufTy).Contents (Elt Ideal)) (x4 : (⟨S256, .f32⟩ : BufTy).Contents (Elt Ideal))
    (h0 : ∀ i, 0 ≤ (x0 i).toInt) (h1 : ∀ i, 0 ≤ (x1 i).toInt) (b : Fin 131072) (i : Fin 578) :
    val_main_v24 (F := Ideal) x0 x1 x2 x3 x4 (ix2 b i)
      = Net.cat (Net.acc (fun r f => x3 (ix2 r f)) (fun f => x4 (ix1 f)) (fun k => Net.row (x0 (ix2 b k))))
          (Net.acc (fun r f => x3 (ix2 r f)) (fun f => x4 (ix1 f)) (fun k => Net.row (x1 (ix2 b k))))
          (fun d => x2 (ix2 b d)) i := by
  unfold Net.cat val_main_v24
  by_cases c1 : i.val < 256
  · -- the first piece, at the same place
    rw [dif_pos c1]
    refine (concatenate_apply_piece (1 : Fin S131072x578.rank) _ _ (ix2 b i) 0 (by show (0 : Nat) < 3; omega) S131072x256 _ rfl rfl 0 rfl
      (ix2 b (⟨i.val, c1⟩ : Fin 256)) (fun c hc => by match c with | ⟨0, _⟩ => rfl | ⟨1, _⟩ => exact absurd rfl hc)
      (Nat.zero_add _)).trans ?_
    exact acc_s x0 x3 x4 h0 b ⟨i.val, c1⟩
  · rw [dif_neg c1]
    by_cases c2 : i.val < 512
    · -- the second piece, 256 places further on
      rw [dif_pos c2]
      refine (concatenate_apply_piece (1 : Fin S131072x578.rank) _ _ (ix2 b i) 1 (by show (1 : Nat) < 3; omega) S131072x256 _ rfl rfl 256 rfl
        (ix2 b (⟨i.val - 256, by omega⟩ : Fin 256)) (fun c hc => by match c with | ⟨0, _⟩ => rfl | ⟨1, _⟩ => exact absurd rfl hc)
        (by show 256 + (i.val - 256) = i.val; omega)).trans ?_
      exact acc_n x1 x3 x4 h1 b ⟨i.val - 256, by omega⟩
    · -- the third piece, 512 places further on
      rw [dif_neg c2]
      exact concatenate_apply_piece (1 : Fin S131072x578.rank) _ _ (ix2 b i) 2 (by show (2 : Nat) < 3; omega) S131072x66 _ rfl rfl 512 rfl
        (ix2 b (⟨i.val - 512, by have := i.isLt; omega⟩ : Fin 66)) (fun c hc => by match c with | ⟨0, _⟩ => rfl | ⟨1, _⟩ => exact absurd rfl hc)
        (by show 512 + (i.val - 512) = i.val; omega)

/-! ## The first layer -/

private theorem hid_s (x0 x1 : (⟨S131072x3, .i32⟩ : BufTy).Contents (Elt Ideal)) (x2 : (⟨S131072x66, .f32⟩ : BufTy).Contents (Elt Ideal))
    (x3 : (⟨S120x256, .f32⟩ : BufTy).Contents (Elt Ideal)) (x4 : (⟨S256, .f32⟩ : BufTy).Contents (Elt Ideal))
    (x5 : (⟨S578x256, .f32⟩ : BufTy).Contents (Elt Ideal)) (x6 : (⟨S256, .f32⟩ : BufTy).Contents (Elt Ideal))
    (h0 : ∀ i, 0 ≤ (x0 i).toInt) (h1 : ∀ i, 0 ≤ (x1 i).toInt) (b : Fin 131072) (j : Fin 256) :
    val_main_v29 (F := Ideal) x0 x1 x2 x3 x4 x5 x6 (ix2 b j) = Net.hid x0 x1 x2 x3 x4 x5 x6 b j := by
  have el : ∀ k : Fin 578, lidx_main_v25 (ix2 b j) k = ix2 b k := fun k =>
    funext fun a => by match a with | ⟨0, _⟩ => rfl | ⟨1, _⟩ => rfl
  have er : ∀ k : Fin 578, ridx_main_v25 (ix2 b j) k = ix2 k j := fun k =>
    funext fun a => by match a with | ⟨0, _⟩ => rfl | ⟨1, _⟩ => rfl
  have e27 : idx_main_v26 (idx_main_v27 (ix2 b j)) = ix1 j :=
    funext fun a => by match a with | ⟨0, _⟩ => rfl
  unfold Net.hid Net.hidden
  rw [val_main_v29_apply, val_main_v28_apply, val_main_v25_apply, val_main_v27_apply, val_main_v26_apply,
    val_main_call2_v0_apply, val_main_call2_cst_apply, e27]
  simp only [el, er, cat_s x0 x1 x2 x3 x4 h0 h1, Ideal.maximumf_def, Ideal.addf_def, Ideal.ofBits_def, Ideal.ofBits_zero_f32]

/-- The reference's policy result is the policy array. -/
theorem ref_policy (x0 x1 : (⟨S131072x3, .i32⟩ : BufTy).Contents (Elt Ideal)) (x2 : (⟨S131072x66, .f32⟩ : BufTy).Contents (Elt Ideal))
    (x3 : (⟨S120x256, .f32⟩ : BufTy).Contents (Elt Ideal)) (x4 : (⟨S256, .f32⟩ : BufTy).Contents (Elt Ideal))
    (x5 : (⟨S578x256, .f32⟩ : BufTy).Contents (Elt Ideal)) (x6 : (⟨S256, .f32⟩ : BufTy).Contents (Elt Ideal))
    (x9 : (⟨S256x60, .f32⟩ : BufTy).Contents (Elt Ideal)) (x10 : (⟨S60, .f32⟩ : BufTy).Contents (Elt Ideal))
    (h0 : ∀ i, 0 ≤ (x0 i).toInt) (h1 : ∀ i, 0 ≤ (x1 i).toInt) :
    val_main_v39 (F := Ideal) x0 x1 x2 x3 x4 x5 x6 x9 x10 = Net.policyArr x0 x1 x2 x3 x4 x5 x6 x9 x10 := by
  funext i
  obtain ⟨b, o, rfl⟩ : ∃ (b : Fin 131072) (o : Fin 60), i = ix2 b o := ⟨i 0, i 1, eq_ix2 i⟩
  have el : ∀ k : Fin 256, lidx_main_v36 (ix2 b o) k = ix2 b k := fun k =>
    funext fun a => by match a with | ⟨0, _⟩ => rfl | ⟨1, _⟩ => rfl
  have er : ∀ k : Fin 256, ridx_main_v36 (ix2 b o) k = ix2 k o := fun k =>
    funext fun a => by match a with | ⟨0, _⟩ => rfl | ⟨1, _⟩ => rfl
  have e38 : idx_main_v37 (idx_main_v38 (ix2 b o)) = ix1 o :=
    funext fun a => by match a with | ⟨0, _⟩ => rfl
  show _ = Net.policy (fun j o => x9 (ix2 j o)) (fun o => x10 (ix1 o)) (Net.hid x0 x1 x2 x3 x4 x5 x6 b) o
  unfold Net.policy
  rw [val_main_v39_apply, val_main_v36_apply, val_main_v38_apply, val_main_v37_apply, e38]
  simp only [el, er, hid_s x0 x1 x2 x3 x4 x5 x6 h0 h1, Ideal.addf_def]

/-- The reference's value result is the value array. -/
theorem ref_value (x0 x1 : (⟨S131072x3, .i32⟩ : BufTy).Contents (Elt Ideal)) (x2 : (⟨S131072x66, .f32⟩ : BufTy).Contents (Elt Ideal))
    (x3 : (⟨S120x256, .f32⟩ : BufTy).Contents (Elt Ideal)) (x4 : (⟨S256, .f32⟩ : BufTy).Contents (Elt Ideal))
    (x5 : (⟨S578x256, .f32⟩ : BufTy).Contents (Elt Ideal)) (x6 : (⟨S256, .f32⟩ : BufTy).Contents (Elt Ideal))
    (x7 : (⟨S256x1, .f32⟩ : BufTy).Contents (Elt Ideal)) (x8 : (⟨S1, .f32⟩ : BufTy).Contents (Elt Ideal))
    (h0 : ∀ i, 0 ≤ (x0 i).toInt) (h1 : ∀ i, 0 ≤ (x1 i).toInt) :
    val_main_v35 (F := Ideal) x0 x1 x2 x3 x4 x5 x6 x7 x8 = Net.valueArr x0 x1 x2 x3 x4 x5 x6 x7 x8 := by
  funext i
  obtain ⟨b, rfl⟩ : ∃ b : Fin 131072, i = ix1 b := ⟨i 0, eq_ix1 i⟩
  -- the reshape reads row b of the one-column array
  have e35 : idx_main_v35 (ix1 b) = ix2 b (0 : Fin 1) :=
    funext fun a => Fin.ext (by match a with | ⟨0, _⟩ => exact Nat.div_one _ | ⟨1, _⟩ => rfl)
  have el : ∀ k : Fin 256, lidx_main_v30 (ix2 b (0 : Fin 1)) k = ix2 b k := fun k =>
    funext fun a => by match a with | ⟨0, _⟩ => rfl | ⟨1, _⟩ => rfl
  have er : ∀ k : Fin 256, ridx_main_v30 (ix2 b (0 : Fin 1)) k = ix2 k (0 : Fin 1) := fun k =>
    funext fun a => by match a with | ⟨0, _⟩ => rfl | ⟨1, _⟩ => rfl
  have e32 : idx_main_v31 (idx_main_v32 (ix2 b (0 : Fin 1))) = ix1 (0 : Fin 1) :=
    funext fun a => by match a with | ⟨0, _⟩ => rfl
  show _ = Net.value (fun j => x7 (ix2 j 0)) (x8 (ix1 0)) (Net.hid x0 x1 x2 x3 x4 x5 x6 b)
  unfold Net.value
  rw [val_main_v35_apply, e35, val_main_v34_apply, val_main_v33_apply, val_main_v30_apply, val_main_v32_apply,
    val_main_v31_apply, e32]
  simp only [el, er, hid_s x0 x1 x2 x3 x4 x5 x6 h0 h1, Ideal.addf_def, Ideal.hostUnary_tanh_def]

end Cert.ReferenceIdeal.RefNet

end
-- ==== Proof.PreIdx.lean ====
/-
  What the precondition says of the two index arrays: no index word is negative (as a signed 32-bit integer).
-/
import proofs.«404441_j58291296141587_3_alg».proof.Pre_finite_inputs
import proofs.«404441_j58291296141587_3_alg».proof.Proof.Gen.Pre_finite_inputs
import Idealize.ShloMosaic.Lib.ReduceAll
import Idealize.ShloMosaic.Lib.StableHlo.Predicate
import Idealize.ShloMosaic.Lib.ValueIdx

noncomputable section

namespace Cert.PreIdx

open Cert.Pre_finite_inputs Idealize.ShloMosaic Idealize.ShloMosaic.ValueIdx

/-- The scalar shape has exactly one index: an index is a function out of the empty set of axes. -/
private instance scalarIdxSubsingleton : Subsingleton S_.Idx := ⟨fun a b => funext fun d => d.elim0⟩

/-- ONE INDEX TEST READ BACK. The test compares every word of `a` (signed) with the scalar 0 laid over the whole array
    and folds the resulting bits by `and` from 1. If the fold is 1, every bit it met is 1; the bit at `i` is the comparison
    `0 ≤ a i` of signed readings, because the broadcast scalar reads 0 at every index. -/
private theorem nonneg_of_all (a : IVec S131072x3 32)
    (hb : S_.BroadcastsInDim S131072x3 (![] : Fin 0 → Fin S131072x3.rank))
    (hr : S131072x3.ReducesTo [0, 1] S_) (h0 : 0 < S_.numel)
    (e : Host.reduce IntOp.andi (cmpi .sge a (broadcastInDim S131072x3 ![] hb (constantI S_ 32 0#32)))
      (constantI S_ 1 1#1) hr h0 ix0 = 1#1)
    (i : S131072x3.Idx) : 0 ≤ (a i).toInt := by
  have hbit : cmpi .sge a (broadcastInDim S131072x3 ![] hb (constantI S_ 32 0#32)) i = 1#1 :=
    Host.reduce_andi_all _ _ hr h0 ix0 e i
  -- at index i the comparison is of the word a i with the word 0
  have hword : IntOp.cmpi .sge (a i) 0#32 = 1#1 := hbit
  have hle : (0#32 : BitVec 32).toInt ≤ (a i).toInt := IntOp.cmpi_sge.1 hword
  rw [show (0#32 : BitVec 32).toInt = 0 from by decide] at hle
  exact hle

/-- If the precondition evaluates to true, every entry of both index arrays is non-negative. -/
theorem nonneg_of_pre (a0 a1 : IVec S131072x3 32) (a2 : FVec Ideal S131072x66 .f32) (a3 : FVec Ideal S120x256 .f32)
    (a4 : FVec Ideal S256 .f32) (a5 : FVec Ideal S578x256 .f32) (a6 : FVec Ideal S256 .f32) (a7 : FVec Ideal S256x1 .f32)
    (a8 : FVec Ideal S1 .f32) (a9 : FVec Ideal S256x60 .f32) (a10 : FVec Ideal S60 .f32)
    (h : fn (F := Ideal) a0 a1 a2 a3 a4 a5 a6 a7 a8 a9 a10 = fun _ => 1#1) :
    (∀ i, 0 ≤ (a0 i).toInt) ∧ (∀ i, 0 ≤ (a1 i).toInt) := by
  -- the predicate is a scalar: read it at its one index
  have h' := congrFun h ix0
  -- the printed chain, unfolded: its last two steps are (everything before ∧ test of a0) ∧ test of a1
  dsimp only [fn, fn_part1, fn_part2, fn_part3] at h'
  -- the outer conjunction: the test of a1 is 1, and so is everything before it
  obtain ⟨hrest, ht1⟩ := IntOp.andi_eq_one.1 h'
  -- the next conjunction: the test of a0 is 1 (the float tests before it are not needed)
  obtain ⟨-, ht0⟩ := IntOp.andi_eq_one.1 hrest
  exact ⟨nonneg_of_all a0 _ _ _ ht0, nonneg_of_all a1 _ _ _ ht1⟩

end Cert.PreIdx

end
-- ==== Proof.lean ====
/-
  An embedding lookup with two small heads, fused into one kernel, against its plain reference.

  Each batch row carries three table indices per side and 66 dense features. Both programs compute, per side, the sum
  of the three table rows the indices select plus a bias, clipped at zero; a first layer on the two sides' results and
  the dense features (578 inputs, 256 outputs, clipped at zero); a policy head (60 outputs) and a value head (one
  output through tanh). The kernel selects rows by a product of one-hot counts with the table, evaluates the first
  layer as three partial products over the matrix's three stretches of rows, and evaluates both heads as one fused
  64-column product whose columns 0..59 are the policy and column 60 the value. Over the extended reals these are the
  same sums in another order and grouping (Spec.lean), and no law used needs finiteness.

  The two programs differ on negative indices: the reference wraps a negative index around the table's end before its
  gather clamps it, the kernel clamps it to row 0. The statement therefore carries the precondition that no index is
  negative (an index at or past the table's end is clamped to the last row by both programs and needs no condition).

  The claim's five parts: the word-level kernel's and the idealized kernel's frames are the generated ones; the
  reference's frame is its generated run with the results dropped; the idealization rewrote nothing; and the two
  idealized programs end with the policy and value arrays of SpecArr.lean at the arguments (KernelNet.lean for the
  kernel, RefSpec.lean for the reference, PreIdx.lean for what the precondition says of the indices).
-/
import proofs.«404441_j58291296141587_3_alg».proof.Defs
import proofs.«404441_j58291296141587_3_alg».proof.Proof.Gen.Kernel
import proofs.«404441_j58291296141587_3_alg».proof.Proof.Gen.Kernel.Skeleton
import proofs.«404441_j58291296141587_3_alg».proof.Proof.Gen.Kernel.Launch
import proofs.«404441_j58291296141587_3_alg».proof.Proof.Gen.Kernel.Points
import proofs.«404441_j58291296141587_3_alg».proof.Proof.Gen.Kernel.Frame
import proofs.«404441_j58291296141587_3_alg».proof.Proof.Gen.KernelIdeal
import proofs.«404441_j58291296141587_3_alg».proof.Proof.Gen.KernelIdeal.Skeleton
import proofs.«404441_j58291296141587_3_alg».proof.Proof.Gen.KernelIdeal.Launch
import proofs.«404441_j58291296141587_3_alg».proof.Proof.Gen.KernelIdeal.Points
import proofs.«404441_j58291296141587_3_alg».proof.Proof.Gen.KernelIdeal.Frame
import proofs.«404441_j58291296141587_3_alg».proof.Proof.Gen.ReferenceIdeal
import proofs.«404441_j58291296141587_3_alg».proof.Proof.Gen.Pre_finite_inputs
import proofs.«404441_j58291296141587_3_alg».proof.Proof.Gen.KernelIdeal.Value
import proofs.«404441_j58291296141587_3_alg».proof.Proof.Gen.ReferenceIdeal.Run
import proofs.«404441_j58291296141587_3_alg».proof.Proof.Gen.ReferenceIdeal.Read
import proofs.«404441_j58291296141587_3_alg».proof.Proof.KernelNet
import proofs.«404441_j58291296141587_3_alg».proof.Proof.RefSpec
import proofs.«404441_j58291296141587_3_alg».proof.Proof.PreIdx
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs end with the policy and value arrays of the arguments. -/
theorem algebraic : Cert.algebraic_KernelIdeal_ReferenceIdeal := by
  intro m ρ m' ρ' hpre hagree
  refine ⟨fun c => Net.policyArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    fun c => Net.valueArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · -- the kernel: the launch's two arrays, block by block, then in terms of the arguments
    refine (θ_run Cert.KernelIdeal.defs _ _).mono (fun r h c => ?_) (Cert.KernelIdeal.Value.run_blocks (F := Ideal) m ρ)
    exact ⟨(h c).1.trans ((Cert.KernelIdeal.BlockValue.final11 m c).trans (Cert.KernelIdeal.KNet.polV_eq m c)),
      (h c).2.1.trans ((Cert.KernelIdeal.BlockValue.final12 m c).trans (Cert.KernelIdeal.KNet.valV_eq m c)), (h c).2.2⟩
  · -- the reference: its run's two terms are the stages RefSpec.lean reads, at arguments equal to the kernel's
    refine (θ_run Cert.ReferenceIdeal.defs _ _).mono (fun r h c => ?_) (Cert.ReferenceIdeal.Value.run (F := Ideal) m' ρ')
    have hn := Cert.PreIdx.nonneg_of_pre _ _ _ _ _ _ _ _ _ _ _ (hpre c)
    obtain ⟨a0, a1, a2, a3, a4, a5, a6, a7, a8, a9, a10⟩ := hagree c
    refine ⟨(h c).1.trans ?_, (h c).2.1.trans ?_, (h c).2.2⟩
    · rw [a0, a1, a2, a3, a4, a5, a6, a9, a10]
      exact Cert.ReferenceIdeal.RefNet.ref_policy _ _ _ _ _ _ _ _ _ hn.1 hn.2
    · rw [a0, a1, a2, a3, a4, a5, a6, a7, a8]
      exact Cert.ReferenceIdeal.RefNet.ref_value _ _ _ _ _ _ _ _ _ hn.1 hn.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
